-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S1 : Shape := ⟨1, ![1]⟩
abbrev S800000 : Shape := ⟨1, ![800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg8 : IVec S800000 32) (main_v33 : IVec S_ 1) : IVec S_ 1 :=
  let main_c_12 : IVec S_ 32 := constantI S_ 32 0#32
  let main_v34 : IVec S800000 32 := broadcastInDim S800000 ![] bcast_S_S800000 main_c_12
  let main_v35 : IVec S800000 1 := cmpi .sge main_arg8 main_v34
  let main_c_13 : IVec S_ 1 := constantI S_ 1 1#1
  let main_v36 : IVec S_ 1 := (fun x v => Host.reduce IntOp.andi x v reducesTo_S800000_S_d0 h_S_) main_v35 main_c_13
  let main_v37 : IVec S_ 1 := andi main_v33 main_v36
  main_v37

def fn_part1 {F : FTy → Type} [FloatOps F] (main_arg4 : FVec F S1 .f32) (main_arg5 : FVec F S1 .f32) (main_arg6 : FVec F S1 .f32) (main_arg8 : IVec S800000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : FVec F S128x128 .f32) (main_arg2 : FVec F S128x128 .f32) (main_arg3 : FVec F S128x128 .f32) (main_arg4 : FVec F S1 .f32) (main_arg5 : FVec F S1 .f32) (main_arg6 : FVec F S1 .f32) (main_arg7 : IVec S800000 32) (main_arg8 : IVec S800000 32) (main_arg9 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg8 main_v13 main_v16
-- ==== Kernel.lean ====
abbrev S50000x128 : Shape := ⟨2, ![50000, 128]⟩
abbrev S128x128 : Shape := ⟨2, ![128, 128]⟩
abbrev S1 : Shape := ⟨1, ![1]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x1 : Shape := ⟨2, ![1, 1]⟩
abbrev S2000x128 : Shape := ⟨2, ![2000, 128]⟩
abbrev S2000x1 : Shape := ⟨2, ![2000, 1]⟩
abbrev S500x128 : Shape := ⟨2, ![500, 128]⟩
abbrev S500x256 : Shape := ⟨2, ![500, 256]⟩
abbrev S500x384 : Shape := ⟨2, ![500, 384]⟩

abbrev nBuf : Space → Nat
  | .hbm => 118
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S800000, .i32⟩
  | .hbm, ⟨8, _⟩ => ⟨S800000, .i32⟩
  | .hbm, ⟨9, _⟩ => ⟨S50000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S50000x128, .bf16⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .bf16⟩
  | .hbm, ⟨42, _⟩ => ⟨S_, .f32⟩
  | .hbm, ⟨43, _⟩ => ⟨S50000x128, .f32⟩
  | .hbm, ⟨44, _⟩ => ⟨S800000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S50000x128, .f32⟩
  | .hbm, ⟨54, _⟩ => ⟨S1x1, .f32⟩
  | .hbm, ⟨55, _⟩ => ⟨S50000x128, .f32⟩
  | .hbm, ⟨56, _⟩ => ⟨S50000x128, .bf16⟩
  | .hbm, ⟨57, _⟩ => ⟨S_, .f32⟩
  | .hbm, ⟨58, _⟩ => ⟨S500x128, .f32⟩
  | .hbm, ⟨59, _⟩ => ⟨S50000x1, .i32⟩
  | .hbm, ⟨60, _⟩ => ⟨S500x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .bf16⟩
  | .hbm, ⟨70, _⟩ => ⟨S_, .f32⟩
  | .hbm, ⟨71, _⟩ => ⟨S50000x128, .f32⟩
  | .hbm, ⟨72, _⟩ => ⟨S800000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S50000x128, .f32⟩
  | .hbm, ⟨82, _⟩ => ⟨S1x1, .f32⟩
  | .hbm, ⟨83, _⟩ => ⟨S50000x128, .f32⟩
  | .hbm, ⟨84, _⟩ => ⟨S50000x128, .bf16⟩
  | .hbm, ⟨85, _⟩ => ⟨S_, .f32⟩
  | .hbm, ⟨86, _⟩ => ⟨S500x128, .f32⟩
  | .hbm, ⟨87, _⟩ => ⟨S50000x1, .i32⟩
  | .hbm, ⟨88, _⟩ => ⟨S500x128, .f32⟩
  | .hbm, ⟨89, _⟩ => ⟨S500x256, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x128, .bf16⟩
  | .hbm, ⟨99, _⟩ => ⟨S_, .f32⟩
  | .hbm, ⟨100, _⟩ => ⟨S50000x128, .f32⟩
  | .hbm, ⟨101, _⟩ => ⟨S800000x128, .f32⟩
  | .hbm, ⟨102, _⟩ => ⟨S_, .i32⟩
  | .hbm, ⟨103, _⟩ => ⟨S800000, .i32⟩
  | .hbm, ⟨104, _⟩ => ⟨S800000, .i1⟩
  | .hbm, ⟨105, _⟩ => ⟨S_, .i32⟩
  | .hbm, ⟨106, _⟩ => ⟨S800000, .i32⟩
  | .hbm, ⟨107, _⟩ => ⟨S800000, .i32⟩
  | .hbm, ⟨108, _⟩ => ⟨S800000, .i32⟩
  | .hbm, ⟨109, _⟩ => ⟨S800000x1, .i32⟩
  | .hbm, ⟨110, _⟩ => ⟨S50000x128, .f32⟩
  | .hbm, ⟨111, _⟩ => ⟨S1x1, .f32⟩
  | .hbm, ⟨112, _⟩ => ⟨S50000x128, .f32⟩
  | .hbm, ⟨113, _⟩ => ⟨S_, .f32⟩
  | .hbm, ⟨114, _⟩ => ⟨S500x128, .f32⟩
  | .hbm, ⟨115, _⟩ => ⟨S50000x1, .i32⟩
  | .hbm, ⟨116, _⟩ => ⟨S500x128, .f32⟩
  | .hbm, ⟨117, _⟩ => ⟨S500x384, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x1, .f32⟩
  | .local _ .vmem, ⟨4, _⟩ => ⟨S2000x1, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S2000x128, .f32⟩
  | .local _ .vmem, ⟨9, _⟩ => ⟨S2000x128, .f32⟩
  | .local _ .vmem, ⟨10, _⟩ => ⟨S2000x128, .bf16⟩
  | .local _ .vmem, ⟨11, _⟩ => ⟨S2000x128, .bf16⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x1, .f32⟩
  | .local _ .vmem, ⟨16, _⟩ => ⟨S2000x1, .f32⟩
  | .local _ .vmem, ⟨17, _⟩ => ⟨S2000x1, .f32⟩
  | .local _ .vmem, ⟨18, _⟩ => ⟨S2000x1, .f32⟩
  | .local _ .vmem, ⟨19, _⟩ => ⟨S2000x1, .f32⟩
  | .local _ .vmem, ⟨20, _⟩ => ⟨S2000x128, .f32⟩
  | .local _ .vmem, ⟨21, _⟩ => ⟨S2000x128, .f32⟩
  | .local _ .vmem, ⟨22, _⟩ => ⟨S2000x128, .bf16⟩
  | .local _ .vmem, ⟨23, _⟩ => ⟨S2000x128, .bf16⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x1, .f32⟩
  | .local _ .vmem, ⟨28, _⟩ => ⟨S2000x1, .f32⟩
  | .local _ .vmem, ⟨29, _⟩ => ⟨S2000x1, .f32⟩
  | .local _ .vmem, ⟨30, _⟩ => ⟨S2000x128, .f32⟩
  | .local _ .vmem, ⟨31, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35_0 : Ref sig .tc := ⟨.hbm, 55, rfl⟩
abbrev main_v35_1 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_c_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56_0 : Ref sig .tc := ⟨.hbm, 83, rfl⟩
abbrev main_v56_1 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_c_19 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x128 : S1x1.Broadcasts S2000x128
  packedbf16_S2000x128_S2000x128_0_0 : (Rect.unit (s := S2000x128) ![0, 0] S2000x128.size inb_S2000x128_S2000x128_0_0).PackedRows (EltTy.packing .bf16)
  bcast_S_S500x128 : S_.BroadcastsInDim S500x128 (![] : Fin 0 → Fin S500x128.rank)
  bcast_S50000_S50000x1_0 : S50000.BroadcastsInDim S50000x1 (![0] : Fin 1 → Fin S50000x1.rank)
  concatenates_S500x128_S500x128_S500x256_d1 : Shape.Concatenates [S500x128, S500x128] S500x256 1
  concatenates_S500x256_S500x128_S500x384_d1 : Shape.Concatenates [S500x256, S500x128] S500x384 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S500x128_S50000x1_S50000x128_1_0_0_1_wf : ScatterDims.WF S500x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .bf16 = 32 ∨ (Rect.block (s := S50000x128) S2000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf

abbrev win0_0 : Pipeline.Window sig grid0 :=
  Pipeline.Window.ofSpec (Memref.whole main_v33) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v35_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v35_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v54) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v56_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v56_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v76) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v78) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S1 : Shape := ⟨1, ![1]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x1 : Shape := ⟨2, ![1, 1]⟩
abbrev S500x128 : Shape := ⟨2, ![500, 128]⟩
abbrev S500x256 : Shape := ⟨2, ![500, 256]⟩
abbrev S500x384 : Shape := ⟨2, ![500, 384]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S800000, .i32⟩
  | .hbm, ⟨8, _⟩ => ⟨S800000, .i32⟩
  | .hbm, ⟨9, _⟩ => ⟨S50000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .i1⟩
  | .hbm, ⟨51, _⟩ => ⟨S1x1, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S500x128, .f32⟩
  | .hbm, ⟨57, _⟩ => ⟨S50000x1, .i32⟩
  | .hbm, ⟨58, _⟩ => ⟨S500x128, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .i1⟩
  | .hbm, ⟨82, _⟩ => ⟨S1x1, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S500x128, .f32⟩
  | .hbm, ⟨88, _⟩ => ⟨S50000x1, .i32⟩
  | .hbm, ⟨89, _⟩ => ⟨S500x128, .f32⟩
  | .hbm, ⟨90, _⟩ => ⟨S500x256, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x128, .f32⟩
  | .hbm, ⟨103, _⟩ => ⟨S_, .f32⟩
  | .hbm, ⟨104, _⟩ => ⟨S50000x128, .f32⟩
  | .hbm, ⟨105, _⟩ => ⟨S800000x1, .i32⟩
  | .hbm, ⟨106, _⟩ => ⟨S50000x128, .f32⟩
  | .hbm, ⟨107, _⟩ => ⟨S50000x1, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S50000x128, .f32⟩
  | .hbm, ⟨113, _⟩ => ⟨S50000x128, .i1⟩
  | .hbm, ⟨114, _⟩ => ⟨S1x1, .f32⟩
  | .hbm, ⟨115, _⟩ => ⟨S50000x128, .f32⟩
  | .hbm, ⟨116, _⟩ => ⟨S50000x128, .f32⟩
  | .hbm, ⟨117, _⟩ => ⟨S50000x128, .f32⟩
  | .hbm, ⟨118, _⟩ => ⟨S_, .f32⟩
  | .hbm, ⟨119, _⟩ => ⟨S500x128, .f32⟩
  | .hbm, ⟨120, _⟩ => ⟨S50000x1, .i32⟩
  | .hbm, ⟨121, _⟩ => ⟨S500x128, .f32⟩
  | .hbm, ⟨122, _⟩ => ⟨S500x384, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_16 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_17 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  bcast_S_S500x128 : S_.BroadcastsInDim S500x128 (![] : Fin 0 → Fin S500x128.rank)
  concatenates_S500x128_S500x128_S500x256_d1 : Shape.Concatenates [S500x128, S500x128] S500x256 1
  concatenates_S500x256_S500x128_S500x384_d1 : Shape.Concatenates [S500x256, S500x128] S500x384 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S500x128_S50000x1_S50000x128_1_0_0_1_wf : ScatterDims.WF S500x128 S50000x1 S50000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf

class Facts : Prop extends Facts₀ where

variable [Facts]
-- ==== Proof.KernelHost.lean ====
/-
  The kernel program's host operations between its three dense kernels, read stretch by stretch: what each stretch
  leaves in the buffers that a later kernel or stretch reads, as a function of what it finds in the buffers it reads.

  The stretches compute the two degree vectors and their inverse square roots (laid out as columns), the scaled
  features carried along the edges and summed at the targets (with negative indices counted from the end, and the
  carried rows passed through the narrower float format and back), the slope as a one-by-one array, the pooled rows of
  each layer and their concatenation. Every other buffer a stretch does not write keeps its contents.
-/
import proofs.«409004_j16501264351451_3_alg».proof.Proof.Gen.KernelIdeal.Frame
import Idealize.ShloMosaic.Lib.StableHlo.Run

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Facts₀
open Cert.KernelIdeal.Gen (hostOps0 hostOps1 hostOps2 hostOps3)

variable {F : FTy → Type} [FloatOps F]

/-- A per-node vector laid out as a column, and a one-entry vector as a one-by-one array. -/
def colK (v : FVec F S50000 .f32) : FVec F S50000x1 .f32 := shapeCast S50000x1 v shapeCasts_S50000_S50000x1
def cellK (a : FVec F S1 .f32) : FVec F S1x1 .f32 := shapeCast S1x1 a shapeCasts_S1_S1x1

/-- The inverse square root of each node's degree (clamped below by one) through the index vector `e`. -/
def invK (e : IVec S800000 32) : FVec F S50000 .f32 :=
  Host.rsqrt (maximumf (Host.scatterAdd scatter_S50000_S800000x1_S800000_n_0_0_1 (broadcastInDim S50000 ![] bcast_S_S50000 (constant S_ .f32 0x00000000#32)) (broadcastInDim S800000x1 ![0] bcast_S800000_S800000x1_0 e) (broadcastInDim S800000 ![] bcast_S_S800000 (constant S_ .f32 0x3F800000#32))) (broadcastInDim S50000 ![] bcast_S_S50000 (constant S_ .f32 0x3F800000#32)))

/-- A negative node index counted from the end. -/
def wrapK (e : IVec S800000 32) : IVec S800000 32 :=
  select (cmpi .slt e (broadcastInDim S800000 ![] bcast_S_S800000 (constantI S_ 32 0#32))) (addi e (broadcastInDim S800000 ![] bcast_S_S800000 (constantI S_ 32 50000#32))) e

/-- The rows `x` carried along the edges and summed at the targets. -/
def aggK (x : FVec F S50000x128 .bf16) (src dst : IVec S800000 32) : FVec F S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 (wrapK dst)) (extf .f32 (Host.gather gather_S50000x128_S800000x1_S800000x128_1_0_n_n_0_1_1128 x (broadcastInDim S800000x1 ![0] bcast_S800000_S800000x1_0 (wrapK src))) bitsLt_bf16_f32)

/-- The features scaled by the source-side factor column, in the narrower format. -/
def scaledK (x : FVec F S50000x128 .f32) (o : FVec F S50000x1 .f32) : FVec F S50000x128 .bf16 :=
  truncf .bf16 (mulf x (broadcastInDim S50000x128 ![0, 1] bcast_S50000x1_S50000x128_0_1 o)) bitsLt_bf16_f32

/-- The rows of each graph summed. -/
def poolK (h : FVec F S50000x128 .f32) (gid : IVec S50000 32) : FVec F S500x128 .f32 :=
  Host.scatterAdd scatter_S500x128_S50000x1_S50000x128_1_0_0_1 (broadcastInDim S500x128 ![] bcast_S_S500x128 (constant S_ .f32 0x00000000#32)) (broadcastInDim S50000x1 ![0] bcast_S50000_S50000x1_0 gid) h

/-! ## The first stretch -/

theorem first_v10 (W : Valuation τ sig (Elt F)) :
    StableHlo.after (hostOps0 (F := F)) W (Proc.devRef .tc main_v10) = colK (invK (W (Proc.devRef .tc main_arg7))) := by
  simp only [hostOps0]; after_results_simp; rfl
theorem first_v14 (W : Valuation τ sig (Elt F)) :
    StableHlo.after (hostOps0 (F := F)) W (Proc.devRef .tc main_v14) = colK (invK (W (Proc.devRef .tc main_arg8))) := by
  simp only [hostOps0]; after_results_simp; rfl
theorem first_v33 (W : Valuation τ sig (Elt F)) :
    StableHlo.after (hostOps0 (F := F)) W (Proc.devRef .tc main_v33)
      = aggK (scaledK (W (Proc.devRef .tc main_arg0)) (colK (invK (W (Proc.devRef .tc main_arg7))))) (W (Proc.devRef .tc main_arg7)) (W (Proc.devRef .tc main_arg8)) := by
  simp only [hostOps0]; after_results_simp; rfl
theorem first_v34 (W : Valuation τ sig (Elt F)) :
    StableHlo.after (hostOps0 (F := F)) W (Proc.devRef .tc main_v34) = cellK (W (Proc.devRef .tc main_arg4)) := by
  simp only [hostOps0]; after_results_simp; rfl

/-- The first stretch writes none of these buffers. -/
theorem first_keeps (W : Valuation τ sig (Elt F)) :
    ∀ b ∈ [main_arg1, main_arg2, main_arg3, main_arg5, main_arg6, main_arg7, main_arg8, main_arg9],
      StableHlo.after (hostOps0 (F := F)) W (Proc.devRef .tc b) = W (Proc.devRef .tc b) := by
  intro b hb
  simp only [List.mem_cons, List.not_mem_nil, or_false] at hb
  rcases hb with rfl | rfl | rfl | rfl | rfl | rfl | rfl | rfl <;> (simp only [hostOps0]; after_results_simp)

/-! ## The second stretch -/

theorem second_v38 (W : Valuation τ sig (Elt F)) :
    StableHlo.after (hostOps1 (F := F)) W (Proc.devRef .tc main_v38) = poolK (W (Proc.devRef .tc main_v35_0)) (W (Proc.devRef .tc main_arg9)) := by
  simp only [hostOps1]; after_results_simp; rfl
theorem second_v54 (W : Valuation τ sig (Elt F)) :
    StableHlo.after (hostOps1 (F := F)) W (Proc.devRef .tc main_v54)
      = aggK (W (Proc.devRef .tc main_v35_1)) (W (Proc.devRef .tc main_arg7)) (W (Proc.devRef .tc main_arg8)) := by
  simp only [hostOps1]; after_results_simp; rfl
theorem second_v55 (W : Valuation τ sig (Elt F)) :
    StableHlo.after (hostOps1 (F := F)) W (Proc.devRef .tc main_v55) = cellK (W (Proc.devRef .tc main_arg5)) := by
  simp only [hostOps1]; after_results_simp; rfl

/-- The second stretch writes none of these buffers. -/
theorem second_keeps (W : Valuation τ sig (Elt F)) :
    ∀ b ∈ [main_v14, main_v10, main_arg2, main_arg3, main_arg6, main_arg7, main_arg8, main_arg9],
      StableHlo.after (hostOps1 (F := F)) W (Proc.devRef .tc b) = W (Proc.devRef .tc b) := by
  intro b hb
  simp only [List.mem_cons, List.not_mem_nil, or_false] at hb
  rcases hb with rfl | rfl | rfl | rfl | rfl | rfl | rfl | rfl <;> (simp only [hostOps1]; after_results_simp)

/-! ## The third stretch -/

theorem third_v60 (W : Valuation τ sig (Elt F)) :
    StableHlo.after (hostOps2 (F := F)) W (Proc.devRef .tc main_v60)
      = concatenate S500x256 1 [⟨S500x128, W (Proc.devRef .tc main_v38)⟩, ⟨S500x128, poolK (W (Proc.devRef .tc main_v56_0)) (W (Proc.devRef .tc main_arg9))⟩] concatenates_S500x128_S500x128_S500x256_d1 := by
  simp only [hostOps2]; after_results_simp; rfl
theorem third_v76 (W : Valuation τ sig (Elt F)) :
    StableHlo.after (hostOps2 (F := F)) W (Proc.devRef .tc main_v76)
      = aggK (W (Proc.devRef .tc main_v56_1)) (W (Proc.devRef .tc main_arg7)) (W (Proc.devRef .tc main_arg8)) := by
  simp only [hostOps2]; after_results_simp; rfl
theorem third_v77 (W : Valuation τ sig (Elt F)) :
    StableHlo.after (hostOps2 (F := F)) W (Proc.devRef .tc main_v77) = cellK (W (Proc.devRef .tc main_arg6)) := by
  simp only [hostOps2]; after_results_simp; rfl

/-- The third stretch writes none of these buffers. -/
theorem third_keeps (W : Valuation τ sig (Elt F)) :
    ∀ b ∈ [main_v14, main_arg3, main_arg9],
      StableHlo.after (hostOps2 (F := F)) W (Proc.devRef .tc b) = W (Proc.devRef .tc b) := by
  intro b hb
  simp only [List.mem_cons, List.not_mem_nil, or_false] at hb
  rcases hb with rfl | rfl | rfl <;> (simp only [hostOps2]; after_results_simp)

/-! ## The last stretch -/

theorem last_v82 (W : Valuation τ sig (Elt F)) :
    StableHlo.after (hostOps3 (F := F)) W (Proc.devRef .tc main_v82)
      = concatenate S500x384 1 [⟨S500x256, W (Proc.devRef .tc main_v60)⟩, ⟨S500x128, poolK (W (Proc.devRef .tc main_v78)) (W (Proc.devRef .tc main_arg9))⟩] concatenates_S500x256_S500x128_S500x384_d1 := by
  simp only [hostOps3]; after_results_simp; rfl
/-- The last stretch does not write the third layer's node output. -/
theorem last_keeps (W : Valuation τ sig (Elt F)) :
    StableHlo.after (hostOps3 (F := F)) W (Proc.devRef .tc main_v78) = W (Proc.devRef .tc main_v78) := by
  simp only [hostOps3]; after_results_simp

end Cert.KernelIdeal.HostRead

end
-- ==== Proof.Spec.lean ====
/-
  The graph convolution as whole-array functions, and its dense part read at one entry.

  A node's degree counts the edges that name it (an edge naming no node counts nowhere); both degree vectors are
  clamped below by one and sent through the inverse square root. One layer scales every row of the node features by
  the source-side factor, carries each edge's source row to its target row and sums what arrives (`aggregate`),
  scales the sums by the target-side factor, multiplies by the weight matrix and applies PReLU with one slope
  (`dense`). Three layers are chained; after each, the rows of every graph are summed (`pool`) and the three
  pooled blocks are laid side by side.

  `dense_apply` reads the dense part at entry (n, j): PReLU of the sum over k of (agg (n, k) · s n) · W (k, j).
-/
import proofs.«409004_j16501264351451_3_alg».proof.Proof.Gen.ReferenceIdeal
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.ValueIdx Cert.ReferenceIdeal Cert.ReferenceIdeal.Facts₀

section Arrays
variable {F : FTy → Type} [FloatOps F]

/-- How many edges name each node through the index vector `e`. -/
def degree (e : IVec S800000 32) : FVec F S50000 .f32 :=
  Host.scatterAdd scatter_S50000_S800000x1_S800000_n_0_0_1 (broadcastInDim S50000 ![] bcast_S_S50000 (constant S_ .f32 0x00000000#32)) (broadcastInDim S800000x1 ![0] bcast_S800000_S800000x1_0 e) (broadcastInDim S800000 ![] bcast_S_S800000 (constant S_ .f32 0x3F800000#32))

/-- The normalising factor of each node: the inverse square root of its degree clamped below by one. -/
def invSqrtDeg (e : IVec S800000 32) : FVec F S50000 .f32 :=
  Host.rsqrt (maximumf (degree (F := F) e) (broadcastInDim S50000 ![] bcast_S_S50000 (constant S_ .f32 0x3F800000#32)))

/-- A per-node factor repeated along each node's row. -/
def rows (v : FVec F S50000 .f32) : FVec F S50000x128 .f32 :=
  broadcastInDim S50000x128 ![0, 1] bcast_S50000x1_S50000x128_0_1 (broadcastInDim S50000x1 ![0] bcast_S50000_S50000x1_0 v)

/-- A negative node index counted from the end. -/
def wrap (e : IVec S800000 32) : IVec S800000 32 :=
  select (cmpi .slt e (broadcastInDim S800000 ![] bcast_S_S800000 (constantI S_ 32 0#32))) (addi e (broadcastInDim S800000 ![] bcast_S_S800000 (constantI S_ 32 50000#32))) e

/-- Each edge carries its source node's row to its target node; a node's row is the sum of what arrives. -/
def aggregate (x : FVec F S50000x128 .f32) (src dst : IVec S800000 32) : FVec F S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 x (broadcastInDim S800000x1 ![0] bcast_S800000_S800000x1_0 (wrap src)))

/-- The rows scaled by `s`, times the weight matrix. -/
def product (agg : FVec F S50000x128 .f32) (W : FVec F S128x128 .f32) (s : FVec F S50000 .f32) : FVec F S50000x128 .f32 :=
  Host.dotGeneral dot_S50000x128_S128x128_S50000x128_1_0_0_1_n_n none (mulf agg (rows s)) W

/-- PReLU with the one slope `a`: an entry above zero is kept, any other is multiplied by the slope. -/
def prelu (z : FVec F S50000x128 .f32) (a : FVec F S1 .f32) : FVec F S50000x128 .f32 :=
  select (cmpf .ogt z (broadcastInDim S50000x128 ![] bcast_S_S50000x128 (constant S_ .f32 0x00000000#32))) z (mulf (broadcastInDim S50000x128 ![0, 1] bcast_S1x1_S50000x128_0_1 (broadcastInDim S1x1 ![1] bcast_S1_S1x1_1 a)) z)

/-- The dense part of a layer. -/
def dense (agg : FVec F S50000x128 .f32) (W : FVec F S128x128 .f32) (a : FVec F S1 .f32) (s : FVec F S50000 .f32) : FVec F S50000x128 .f32 :=
  prelu (product agg W s) a

/-- One whole layer from the node features `x`. -/
def layer (x : FVec F S50000x128 .f32) (W : FVec F S128x128 .f32) (a : FVec F S1 .f32) (src dst : IVec S800000 32) : FVec F S50000x128 .f32 :=
  dense (aggregate (mulf x (rows (invSqrtDeg (F := F) src))) src dst) W a (invSqrtDeg (F := F) dst)

/-- The rows of each graph summed. -/
def pool (h : FVec F S50000x128 .f32) (gid : IVec S50000 32) : FVec F S500x128 .f32 :=
  Host.scatterAdd scatter_S500x128_S50000x1_S50000x128_1_0_0_1 (broadcastInDim S500x128 ![] bcast_S_S500x128 (constant S_ .f32 0x00000000#32)) (broadcastInDim S50000x1 ![0] bcast_S50000_S50000x1_0 gid) h

/-- Two pooled blocks, then a third, side by side. -/
def besides (p1 p2 p3 : FVec F S500x128 .f32) : FVec F S500x384 .f32 :=
  concatenate S500x384 1 [⟨S500x256, (concatenate S500x256 1 [⟨S500x128, p1⟩, ⟨S500x128, p2⟩] concatenates_S500x128_S500x128_S500x256_d1)⟩, ⟨S500x128, p3⟩] concatenates_S500x256_S500x128_S500x384_d1

/-- The node features after one, two and three layers. -/
def node1 (x : FVec F S50000x128 .f32) (W0 : FVec F S128x128 .f32) (a0 : FVec F S1 .f32) (src dst : IVec S800000 32) : FVec F S50000x128 .f32 :=
  layer x W0 a0 src dst
def node2 (x : FVec F S50000x128 .f32) (W0 W1 : FVec F S128x128 .f32) (a0 a1 : FVec F S1 .f32) (src dst : IVec S800000 32) : FVec F S50000x128 .f32 :=
  layer (node1 x W0 a0 src dst) W1 a1 src dst
def node3 (x : FVec F S50000x128 .f32) (W0 W1 W2 : FVec F S128x128 .f32) (a0 a1 a2 : FVec F S1 .f32) (src dst : IVec S800000 32) : FVec F S50000x128 .f32 :=
  layer (node2 x W0 W1 a0 a1 src dst) W2 a2 src dst

/-- The three layers' pooled rows, side by side. -/
def pooled (x : FVec F S50000x128 .f32) (W0 W1 W2 : FVec F S128x128 .f32) (a0 a1 a2 : FVec F S1 .f32) (src dst : IVec S800000 32) (gid : IVec S50000 32) : FVec F S500x384 .f32 :=
  besides (pool (node1 x W0 a0 src dst) gid) (pool (node2 x W0 W1 a0 a1 src dst) gid) (pool (node3 x W0 W1 W2 a0 a1 a2 src dst) gid)

end Arrays

/-! ## Read at one entry, over the extended reals -/

section AtIdeal

/-- PReLU of one number with slope `a`. -/
def preluAt (a z : EReal) : EReal :=
  Scalar.select (FloatOps.cmpf (F := Ideal) (φ := .f32) .ogt z (Ideal.ofBits .f32 0x00000000#32)) z (a * z)

/-- A row factor read at entry (n, j) is the node's factor. -/
theorem rows_apply (v : FVec Ideal S50000 .f32) (n : Fin 50000) (j : Fin 128) : rows (F := Ideal) v (ix2 n j) = v (ix1 n) := by
  unfold rows
  rw [broadcastInDim_apply _ bcast_S50000x1_S50000x128_0_1 _ (ix2 n j) (ix2 n (0 : Fin 1)) (fun a => match a with
    | ⟨0, _⟩ => by show n.val = if (50000 : Nat) = 1 then 0 else n.val; rw [if_neg (by decide)]
    | ⟨1, _⟩ => by show 0 = if (1 : Nat) = 1 then 0 else j.val; rw [if_pos rfl])]
  exact broadcastInDim_apply _ bcast_S50000_S50000x1_0 v (ix2 n (0 : Fin 1)) (ix1 n) (fun a => match a with
    | ⟨0, _⟩ => by show n.val = if (50000 : Nat) = 1 then 0 else n.val; rw [if_neg (by decide)])

/-- The slope repeated over the whole array reads the slope everywhere. -/
theorem slope_apply (a : FVec Ideal S1 .f32) (n : Fin 50000) (j : Fin 128) :
    (broadcastInDim S50000x128 ![0, 1] bcast_S1x1_S50000x128_0_1 (broadcastInDim S1x1 ![1] bcast_S1_S1x1_1 a) : FVec Ideal S50000x128 .f32) (ix2 n j) = a (ix1 (0 : Fin 1)) := by
  rw [broadcastInDim_apply _ bcast_S1x1_S50000x128_0_1 _ (ix2 n j) (ix2 (0 : Fin 1) (0 : Fin 1)) (fun a => match a with
    | ⟨0, _⟩ => by show 0 = if (1 : Nat) = 1 then 0 else n.val; rw [if_pos rfl]
    | ⟨1, _⟩ => by show 0 = if (1 : Nat) = 1 then 0 else j.val; rw [if_pos rfl])]
  exact broadcastInDim_apply _ bcast_S1_S1x1_1 a (ix2 (0 : Fin 1) (0 : Fin 1)) (ix1 (0 : Fin 1)) (fun a => match a with
    | ⟨0, _⟩ => by show 0 = if (1 : Nat) = 1 then 0 else 0; rw [if_pos rfl])

theorem lhs_axis0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_axis1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_axis0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_axis1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The matrix product read at entry (n, j): the sum over k of the scaled row entry times the weight entry. -/
theorem product_apply (agg : FVec Ideal S50000x128 .f32) (W : FVec Ideal S128x128 .f32) (s : FVec Ideal S50000 .f32) (n : Fin 50000) (j : Fin 128) :
    product (F := Ideal) agg W s (ix2 n j) = ∑ k : Fin 128, (agg (ix2 n k) * s (ix1 n)) * W (ix2 k j) := by
  unfold product
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n j) ((contrEquiv1 dot_S50000x128_S128x128_S50000x128_1_0_0_1_n_n 128 rfl rfl).symm k) = ix2 n k := funext fun a => Fin.ext (by
    match a with
    | ⟨0, _⟩ => exact lhs_axis0 _ _
    | ⟨1, _⟩ => exact (lhs_axis1 _ _).trans hk)
  have er : dot_S50000x128_S128x128_S50000x128_1_0_0_1_n_n.rhsIdx (ix2 n j) ((contrEquiv1 dot_S50000x128_S128x128_S50000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er, mulf_apply, rows_apply]

/-- The dense part read at entry (n, j). -/
theorem dense_apply (agg : FVec Ideal S50000x128 .f32) (W : FVec Ideal S128x128 .f32) (a : FVec Ideal S1 .f32) (s : FVec Ideal S50000 .f32) (n : Fin 50000) (j : Fin 128) :
    dense (F := Ideal) agg W a s (ix2 n j) = preluAt (a (ix1 (0 : Fin 1))) (∑ k : Fin 128, (agg (ix2 n k) * s (ix1 n)) * W (ix2 k j)) := by
  unfold dense prelu
  rw [select_apply, cmpf_apply, mulf_apply, slope_apply, product_apply]
  rfl

end AtIdeal

end Cert.Gcn

end
-- ==== Proof.Dense.lean ====
/-
  The dense part of a layer as the kernel body computes it on one block of 2000 rows, and as a function of whole
  arrays.

  From a block of aggregated rows `A`, the weight matrix `W`, the slope `a` and two per-row factor columns `s` and
  `o`, the body stores PReLU_a ((A ⊙ s) · W) and that value times `o`. Read at entry (r, j) of the block: the first
  is PReLU_a (Σ_k (A (r, k) · s r) · W (k, j)), the second the same times o r. `denseOf` and `scaledOf` are the same
  two formulas over whole node arrays; a block's values agree with them wherever the block's rows are the arrays' rows.
  The three layers' kernel bodies are one text, so these lemmas serve all three.
-/
import proofs.«409004_j16501264351451_3_alg».proof.Proof.Gen.KernelIdeal.Frame
import proofs.«409004_j16501264351451_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Dense

open Idealize.ShloMosaic Idealize.ShloMosaic.ValueIdx Idealize.ShloMosaic.TcCoe Idealize.SL.Sem
open Cert.KernelIdeal Cert.KernelIdeal.Gen
open Idealize.ShloMosaic.Pipeline (Dat Cfg Window)

/-! ## One entry of the body's two values -/

/-- The row and the column of an entry of a node array, and of a block. -/
abbrev nrow (i : S50000x128.Idx) : Fin 50000 := ⟨(i 0).val, (i 0).isLt⟩
abbrev ncol (i : S50000x128.Idx) : Fin 128 := ⟨(i 1).val, (i 1).isLt⟩
abbrev brow (y : S2000x128.Idx) : Fin 2000 := ⟨(y 0).val, (y 0).isLt⟩
abbrev bcol (y : S2000x128.Idx) : Fin 128 := ⟨(y 1).val, (y 1).isLt⟩

theorem blk_eq (y : S2000x128.Idx) : y = ix2 (brow y) (bcol y) := by
  funext a; match a with | ⟨0, _⟩ => rfl | ⟨1, _⟩ => rfl

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A factor column repeated along each row of a block reads the row's factor. -/
theorem col_apply (v : Vec Ideal S2000x1 .f32) (r : Fin 2000) (j : Fin 128) :
    broadcastTo S2000x128 v broadcasts_S2000x1_S2000x128 (ix2 r j) = v (ix2 r (0 : Fin 1)) :=
  broadcastTo_apply v broadcasts_S2000x1_S2000x128 (ix2 r j) (ix2 r (0 : Fin 1)) (fun a => match a with
    | ⟨0, _⟩ => by show r.val = if (2000 : Nat) = 1 then 0 else r.val; rw [if_neg (by decide)]
    | ⟨1, _⟩ => by show 0 = if (1 : Nat) = 1 then 0 else j.val; rw [if_pos rfl])

/-- The slope repeated over a block reads the slope. -/
theorem slope_apply (v : Vec Ideal S1x1 .f32) (r : Fin 2000) (j : Fin 128) :
    broadcastTo S2000x128 v broadcasts_S1x1_S2000x128 (ix2 r j) = v (ix2 (0 : Fin 1) (0 : Fin 1)) :=
  broadcastTo_apply v broadcasts_S1x1_S2000x128 (ix2 r j) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else j.val; rw [if_pos rfl])

/-- The block product at entry (r, j): the sum over k of the scaled row entry times the weight entry. -/
theorem matmul_apply (x0 : Vec Ideal S2000x128 .f32) (x3 : Vec Ideal S2000x1 .f32) (x1 : Vec Ideal S128x128 .f32) (r : Fin 2000) (j : Fin 128) :
    matmul (F := Ideal) dot_S2000x128_S128x128_S2000x128_1_0_0_1_n_n none
        (truncf FTy.bf16 (mulf x0 (broadcastTo S2000x128 x3 broadcasts_S2000x1_S2000x128)) bitsLt_bf16_f32)
        (truncf FTy.bf16 x1 bitsLt_bf16_f32) (constant S2000x128 FTy.f32 0x00000000#32) (ix2 r j)
      = ∑ k : Fin 128, (x0 (ix2 r k) * x3 (ix2 r (0 : Fin 1))) * x1 (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er, truncf_apply, truncf_apply, mulf_apply, col_apply]

/-- The first stored value at entry (r, j). -/
theorem pay1_apply (x0 : Vec Ideal S2000x128 .f32) (x3 : Vec Ideal S2000x1 .f32) (x1 : Vec Ideal S128x128 .f32) (x2 : Vec Ideal S1x1 .f32) (r : Fin 2000) (j : Fin 128) :
    k0_pay1 x0 x3 x1 x2 (ix2 r j)
      = Cert.Gcn.preluAt (x2 (ix2 (0 : Fin 1) (0 : Fin 1))) (∑ k : Fin 128, (x0 (ix2 r k) * x3 (ix2 r (0 : Fin 1))) * x1 (ix2 k j)) := by
  unfold k0_pay1
  simp only [shapeCast_self]
  rw [select_apply, cmpf_apply, mulf_apply, slope_apply, matmul_apply]
  rfl

/-- The second stored value at entry (r, j): the first times the row's second factor. -/
theorem pay2_apply (x0 : Vec Ideal S2000x128 .f32) (x3 : Vec Ideal S2000x1 .f32) (x1 : Vec Ideal S128x128 .f32) (x2 : Vec Ideal S1x1 .f32) (x4 : Vec Ideal S2000x1 .f32) (r : Fin 2000) (j : Fin 128) :
    k0_pay2 x0 x3 x1 x2 x4 (ix2 r j) = k0_pay1 x0 x3 x1 x2 (ix2 r j) * x4 (ix2 r (0 : Fin 1)) := by
  unfold k0_pay2
  simp only [shapeCast_self]
  rw [truncf_apply, mulf_apply, col_apply]

/-! ## The two output arrays as functions of the whole input arrays -/

/-- PReLU of the scaled rows times the weights, entry by entry. -/
def denseOf (A : S50000x128.Idx → EReal) (W : S128x128.Idx → EReal) (a : S1x1.Idx → EReal) (s : S50000x1.Idx → EReal) :
    S50000x128.Idx → EReal :=
  fun i => Cert.Gcn.preluAt (a (ix2 (0 : Fin 1) (0 : Fin 1)))
    (∑ k : Fin 128, (A (ix2 (nrow i) k) * s (ix2 (nrow i) (0 : Fin 1))) * W (ix2 k (ncol i)))

/-- The same, each row then scaled by its second factor. -/
def scaledOf (A : S50000x128.Idx → EReal) (W : S128x128.Idx → EReal) (a : S1x1.Idx → EReal) (s o : S50000x1.Idx → EReal) :
    S50000x128.Idx → EReal :=
  fun i => denseOf A W a s i * o (ix2 (nrow i) (0 : Fin 1))

/-- A block's first value agrees with `denseOf` of the arrays wherever the block's rows are the arrays' rows. -/
theorem pay1_eq_denseOf (x0 : Vec Ideal S2000x128 .f32) (x3 : Vec Ideal S2000x1 .f32) (x1 : Vec Ideal S128x128 .f32) (x2 : Vec Ideal S1x1 .f32)
    (A : S50000x128.Idx → EReal) (W : S128x128.Idx → EReal) (a : S1x1.Idx → EReal) (s : S50000x1.Idx → EReal)
    (y : S2000x128.Idx) (i : S50000x128.Idx)
    (hA : ∀ k : Fin 128, x0 (ix2 (brow y) k) = A (ix2 (nrow i) k))
    (hs : x3 (ix2 (brow y) (0 : Fin 1)) = s (ix2 (nrow i) (0 : Fin 1)))
    (hW : x1 = W) (ha : x2 = a) (hc : bcol y = ncol i) :
    k0_pay1 x0 x3 x1 x2 y = denseOf A W a s i := by
  rw [blk_eq y, pay1_apply]
  unfold denseOf
  rw [hs, hW, ha, hc]
  exact congrArg _ (Finset.sum_congr rfl fun k _ => by rw [hA k])

/-- A block's second value agrees with `scaledOf` likewise. -/
theorem pay2_eq_scaledOf (x0 : Vec Ideal S2000x128 .f32) (x3 : Vec Ideal S2000x1 .f32) (x1 : Vec Ideal S128x128 .f32) (x2 : Vec Ideal S1x1 .f32) (x4 : Vec Ideal S2000x1 .f32)
    (A : S50000x128.Idx → EReal) (W : S128x128.Idx → EReal) (a : S1x1.Idx → EReal) (s o : S50000x1.Idx → EReal)
    (y : S2000x128.Idx) (i : S50000x128.Idx)
    (hA : ∀ k : Fin 128, x0 (ix2 (brow y) k) = A (ix2 (nrow i) k))
    (hs : x3 (ix2 (brow y) (0 : Fin 1)) = s (ix2 (nrow i) (0 : Fin 1)))
    (hW : x1 = W) (ha : x2 = a) (hc : bcol y = ncol i)
    (ho : x4 (ix2 (brow y) (0 : Fin 1)) = o (ix2 (nrow i) (0 : Fin 1))) :
    k0_pay2 x0 x3 x1 x2 x4 y = scaledOf A W a s o i := by
  have e1 := pay1_eq_denseOf x0 x3 x1 x2 A W a s y i hA hs hW ha hc
  rw [blk_eq y] at e1 ⊢
  rw [pay2_apply, e1, ho]
  rfl

theorem zero_offsets : (![0, 0] : Fin 2 → Nat) = fun _ => 0 := funext fun a => by fin_cases a <;> rfl

end Cert.KernelIdeal.Dense

end
-- ==== Proof.Region0.lean ====
/-
  The first layer's kernel, first output: after the 25 grid points the output array holds PReLU_a ((A ⊙ s) · W) of
  the whole arrays the kernel was entered with. Point t's block is rows 2000·t … 2000·t + 1999 of every row-blocked
  window and the whole of the weight matrix and the slope; the 25 row blocks tile the array.
-/
import proofs.«409004_j16501264351451_3_alg».proof.Proof.Dense

set_option maxRecDepth 16384

noncomputable section

namespace Cert.KernelIdeal.Layer0

open Idealize.ShloMosaic Idealize.ShloMosaic.ValueIdx Idealize.ShloMosaic.TcCoe Idealize.SL.Sem
open Cert.KernelIdeal Cert.KernelIdeal.Gen Cert.KernelIdeal.Dense
open Idealize.ShloMosaic.Pipeline (Dat Cfg Window)

variable (V : (c : Dev nD) → (b : Ref sig .tc) → Buf (Elt Ideal) ((c : Thread nD τ).loc b))

/-- Where the windows' blocks lie at grid point t: the row-blocked windows at block row t, the weight matrix and the
    slope whole at every point. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_5.index t (0 : Fin 2) = t.val ∧ win0_5.index t (1 : Fin 2) = 0 :=
  (by decide +kernel : ∀ t : Fin grid0.N, _)

theorem flushed0_5_eq (c : Dev nD) (t : Fin cfg0.N) :
    (dat0 V c).flushed 5 t = ((cfg0.win 5).blk t).view.read (Elt Ideal)
      (denseOf (V c main_v33) (V c main_arg1) (V c main_v34) (V c main_v14)) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S2000x1) zero_offsets, View.ld_unit_zero (S := S128x128) zero_offsets, View.ld_unit_zero (S := S1x1) zero_offsets]
  obtain ⟨e00, e01, e10, e11, e20, e21, e30, e31, e50, e51⟩ := index_facts0 t
  funext y
  show k0_pay1 (iblk0 V c 0 t) (iblk0 V c 3 t) (iblk0 V c 1 t) (iblk0 V c 2 t) y
    = denseOf (V c main_v33) (V c main_arg1) (V c main_v34) (V c main_v14) (((cfg0.win 5).blk t).view.emb y)
  refine pay1_eq_denseOf (iblk0 V c 0 t) (iblk0 V c 3 t) (iblk0 V c 1 t) (iblk0 V c 2 t) (V c main_v33) (V c main_arg1) (V c main_v34) (V c main_v14) y (((cfg0.win 5).blk t).view.emb y) ?_ ?_ ?_ ?_ ?_
  · intro k
    show V c main_v33 (((cfg0.win 0).blk t).view.emb (ix2 (brow y) k)) = _
    refine congrArg (V c main_v33) (funext fun a => Fin.ext ?_)
    match a with
    | ⟨0, _⟩ => show win0_0.index t (0 : Fin 2) * 2000 + 1 * (y 0).val = win0_5.index t (0 : Fin 2) * 2000 + 1 * (y 0).val; omega
    | ⟨1, _⟩ => show win0_0.index t (1 : Fin 2) * 128 + 1 * k.val = k.val; omega
  · show V c main_v14 (((cfg0.win 3).blk t).view.emb (ix2 (brow y) (0 : Fin 1))) = _
    refine congrArg (V c main_v14) (funext fun a => Fin.ext ?_)
    match a with
    | ⟨0, _⟩ => show win0_3.index t (0 : Fin 2) * 2000 + 1 * (y 0).val = win0_5.index t (0 : Fin 2) * 2000 + 1 * (y 0).val; omega
    | ⟨1, _⟩ => show win0_3.index t (1 : Fin 2) * 1 + 1 * 0 = 0; omega
  · funext z
    show V c main_arg1 (((cfg0.win 1).blk t).view.emb z) = V c main_arg1 z
    refine congrArg (V c main_arg1) (funext fun a => Fin.ext ?_)
    match a with
    | ⟨0, _⟩ => show win0_1.index t (0 : Fin 2) * 128 + 1 * (z 0).val = (z 0).val; omega
    | ⟨1, _⟩ => show win0_1.index t (1 : Fin 2) * 128 + 1 * (z 1).val = (z 1).val; omega
  · funext z
    show V c main_v34 (((cfg0.win 2).blk t).view.emb z) = V c main_v34 z
    refine congrArg (V c main_v34) (funext fun a => Fin.ext ?_)
    match a with
    | ⟨0, _⟩ => show win0_2.index t (0 : Fin 2) * 1 + 1 * (z 0).val = (z 0).val; omega
    | ⟨1, _⟩ => show win0_2.index t (1 : Fin 2) * 1 + 1 * (z 1).val = (z 1).val; omega
  · refine Fin.ext ?_
    show (y 1).val = win0_5.index t (1 : Fin 2) * 128 + 1 * (y 1).val
    omega

theorem mem_blk0_5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v35_0).slice (win0_5.rect t)).set ↔ _
  rw [View.set_slice_whole, Rect.mem_set_unit]
  exact Iff.rfl

theorem tiled0_5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  have hlt : (i 0).val / 2000 < cfg0.N := by rw [hN]; omega
  refine ⟨⟨(i 0).val / 2000, hlt⟩, flush0_5 _, ?_⟩
  rw [mem_blk0_5]
  obtain ⟨e00, e01, e10, e11, e20, e21, e30, e31, e50, e51⟩ := index_facts0 ⟨(i 0).val / 2000, hlt⟩
  have ht : (⟨(i 0).val / 2000, hlt⟩ : Fin cfg0.N).val = (i 0).val / 2000 := rfl
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    omega
  | ⟨1, _⟩ =>
    show win0_5.index ⟨(i 0).val / 2000, hlt⟩ (1 : Fin 2) * 128 ≤ (i 1).val ∧ (i 1).val < win0_5.index ⟨(i 0).val / 2000, hlt⟩ (1 : Fin 2) * 128 + 128
    omega

/-- THE OUTPUT ARRAY after the kernel, from the arrays it was entered with. -/
theorem arr0_5 (c : Dev nD) :
    (dat0 V c).arrAt 5 cfg0.N = denseOf (V c main_v33) (V c main_arg1) (V c main_v34) (V c main_v14) :=
  (dat0 V c).arrAt_eq_of_cover 5 _ (fun t _ => flushed0_5_eq V c t) tiled0_5

end Cert.KernelIdeal.Layer0

end
-- ==== Proof.Region0b.lean ====
/-
  The first layer's kernel, second output: after the 25 grid points the second output array holds
  PReLU_a ((A ⊙ s) · W) ⊙ o of the whole arrays the kernel was entered with, by the same tiling of the rows.
-/
import proofs.«409004_j16501264351451_3_alg».proof.Proof.Dense

set_option maxRecDepth 16384

noncomputable section

namespace Cert.KernelIdeal.Layer0b

open Idealize.ShloMosaic Idealize.ShloMosaic.ValueIdx Idealize.ShloMosaic.TcCoe Idealize.SL.Sem
open Cert.KernelIdeal Cert.KernelIdeal.Gen Cert.KernelIdeal.Dense
open Idealize.ShloMosaic.Pipeline (Dat Cfg Window)

variable (V : (c : Dev nD) → (b : Ref sig .tc) → Buf (Elt Ideal) ((c : Thread nD τ).loc b))

/-- Where the windows' blocks lie at grid point t: the row-blocked windows at block row t, the weight matrix and the
    slope whole at every point. -/
theorem index_facts0b : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_6.index t (0 : Fin 2) = t.val ∧ win0_6.index t (1 : Fin 2) = 0 :=
  (by decide +kernel : ∀ t : Fin grid0.N, _)

theorem flushed0_6_eq (c : Dev nD) (t : Fin cfg0.N) :
    (dat0 V c).flushed 6 t = ((cfg0.win 6).blk t).view.read (Elt Ideal)
      (scaledOf (V c main_v33) (V c main_arg1) (V c main_v34) (V c main_v14) (V c main_v10)) := by
  show (cfg0.win 6).cut (grid0.coords t) ((dat0 V c).after 6 t) = _
  rw [after0_6]
  unfold out0_6
  rw [View.canon_unit_zero zero_offsets]
  simp only [View.ld_unit_zero (S := S2000x128) zero_offsets, View.ld_unit_zero (S := S2000x1) zero_offsets, View.ld_unit_zero (S := S128x128) zero_offsets, View.ld_unit_zero (S := S1x1) zero_offsets]
  obtain ⟨e00, e01, e10, e11, e20, e21, e30, e31, e40, e41, e60, e61⟩ := index_facts0b t
  funext y
  show k0_pay2 (iblk0 V c 0 t) (iblk0 V c 3 t) (iblk0 V c 1 t) (iblk0 V c 2 t) (iblk0 V c 4 t) y
    = scaledOf (V c main_v33) (V c main_arg1) (V c main_v34) (V c main_v14) (V c main_v10) (((cfg0.win 6).blk t).view.emb y)
  refine pay2_eq_scaledOf (iblk0 V c 0 t) (iblk0 V c 3 t) (iblk0 V c 1 t) (iblk0 V c 2 t) (iblk0 V c 4 t) (V c main_v33) (V c main_arg1) (V c main_v34) (V c main_v14) (V c main_v10) y (((cfg0.win 6).blk t).view.emb y) ?_ ?_ ?_ ?_ ?_ ?_
  · intro k
    show V c main_v33 (((cfg0.win 0).blk t).view.emb (ix2 (brow y) k)) = _
    refine congrArg (V c main_v33) (funext fun a => Fin.ext ?_)
    match a with
    | ⟨0, _⟩ => show win0_0.index t (0 : Fin 2) * 2000 + 1 * (y 0).val = win0_6.index t (0 : Fin 2) * 2000 + 1 * (y 0).val; omega
    | ⟨1, _⟩ => show win0_0.index t (1 : Fin 2) * 128 + 1 * k.val = k.val; omega
  · show V c main_v14 (((cfg0.win 3).blk t).view.emb (ix2 (brow y) (0 : Fin 1))) = _
    refine congrArg (V c main_v14) (funext fun a => Fin.ext ?_)
    match a with
    | ⟨0, _⟩ => show win0_3.index t (0 : Fin 2) * 2000 + 1 * (y 0).val = win0_6.index t (0 : Fin 2) * 2000 + 1 * (y 0).val; omega
    | ⟨1, _⟩ => show win0_3.index t (1 : Fin 2) * 1 + 1 * 0 = 0; omega
  · funext z
    show V c main_arg1 (((cfg0.win 1).blk t).view.emb z) = V c main_arg1 z
    refine congrArg (V c main_arg1) (funext fun a => Fin.ext ?_)
    match a with
    | ⟨0, _⟩ => show win0_1.index t (0 : Fin 2) * 128 + 1 * (z 0).val = (z 0).val; omega
    | ⟨1, _⟩ => show win0_1.index t (1 : Fin 2) * 128 + 1 * (z 1).val = (z 1).val; omega
  · funext z
    show V c main_v34 (((cfg0.win 2).blk t).view.emb z) = V c main_v34 z
    refine congrArg (V c main_v34) (funext fun a => Fin.ext ?_)
    match a with
    | ⟨0, _⟩ => show win0_2.index t (0 : Fin 2) * 1 + 1 * (z 0).val = (z 0).val; omega
    | ⟨1, _⟩ => show win0_2.index t (1 : Fin 2) * 1 + 1 * (z 1).val = (z 1).val; omega
  · refine Fin.ext ?_
    show (y 1).val = win0_6.index t (1 : Fin 2) * 128 + 1 * (y 1).val
    omega
  · show V c main_v10 (((cfg0.win 4).blk t).view.emb (ix2 (brow y) (0 : Fin 1))) = _
    refine congrArg (V c main_v10) (funext fun a => Fin.ext ?_)
    match a with
    | ⟨0, _⟩ => show win0_4.index t (0 : Fin 2) * 2000 + 1 * (y 0).val = win0_6.index t (0 : Fin 2) * 2000 + 1 * (y 0).val; omega
    | ⟨1, _⟩ => show win0_4.index t (1 : Fin 2) * 1 + 1 * 0 = 0; omega

theorem mem_blk0_6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v35_1).slice (win0_6.rect t)).set ↔ _
  rw [View.set_slice_whole, Rect.mem_set_unit]
  exact Iff.rfl

theorem tiled0_6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  have hlt : (i 0).val / 2000 < cfg0.N := by rw [hN]; omega
  refine ⟨⟨(i 0).val / 2000, hlt⟩, flush0_6 _, ?_⟩
  rw [mem_blk0_6]
  obtain ⟨e00, e01, e10, e11, e20, e21, e30, e31, e40, e41, e60, e61⟩ := index_facts0b ⟨(i 0).val / 2000, hlt⟩
  have ht : (⟨(i 0).val / 2000, hlt⟩ : Fin cfg0.N).val = (i 0).val / 2000 := rfl
  intro a
  match a with
  | ⟨0, _⟩ =>
    show win0_6.index ⟨(i 0).val / 2000, hlt⟩ (0 : Fin 2) * 2000 ≤ (i 0).val ∧ (i 0).val < win0_6.index ⟨(i 0).val / 2000, hlt⟩ (0 : Fin 2) * 2000 + 2000
    omega
  | ⟨1, _⟩ =>
    show win0_6.index ⟨(i 0).val / 2000, hlt⟩ (1 : Fin 2) * 128 ≤ (i 1).val ∧ (i 1).val < win0_6.index ⟨(i 0).val / 2000, hlt⟩ (1 : Fin 2) * 128 + 128
    omega

/-- THE SECOND OUTPUT ARRAY after the kernel, from the arrays it was entered with. -/
theorem arr0_6 (c : Dev nD) :
    (dat0 V c).arrAt 6 cfg0.N = scaledOf (V c main_v33) (V c main_arg1) (V c main_v34) (V c main_v14) (V c main_v10) :=
  (dat0 V c).arrAt_eq_of_cover 6 _ (fun t _ => flushed0_6_eq V c t) tiled0_6

end Cert.KernelIdeal.Layer0b

end
-- ==== Proof.Region1.lean ====
/-
  The second layer's kernel, first output: after the 25 grid points the output array holds PReLU_a ((A ⊙ s) · W) of
  the whole arrays the kernel was entered with. Point t's block is rows 2000·t … 2000·t + 1999 of every row-blocked
  window and the whole of the weight matrix and the slope; the 25 row blocks tile the array.
-/
import proofs.«409004_j16501264351451_3_alg».proof.Proof.Dense

set_option maxRecDepth 16384

noncomputable section

namespace Cert.KernelIdeal.Layer1

open Idealize.ShloMosaic Idealize.ShloMosaic.ValueIdx Idealize.ShloMosaic.TcCoe Idealize.SL.Sem
open Cert.KernelIdeal Cert.KernelIdeal.Gen Cert.KernelIdeal.Dense
open Idealize.ShloMosaic.Pipeline (Dat Cfg Window)

variable (V : (c : Dev nD) → (b : Ref sig .tc) → Buf (Elt Ideal) ((c : Thread nD τ).loc b))

/-- Where the windows' blocks lie at grid point t: the row-blocked windows at block row t, the weight matrix and the
    slope whole at every point. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_5.index t (0 : Fin 2) = t.val ∧ win1_5.index t (1 : Fin 2) = 0 :=
  (by decide +kernel : ∀ t : Fin grid1.N, _)

theorem flushed1_5_eq (c : Dev nD) (t : Fin cfg1.N) :
    (dat1 V c).flushed 5 t = ((cfg1.win 5).blk t).view.read (Elt Ideal)
      (denseOf (V c main_v54) (V c main_arg2) (V c main_v55) (V c main_v14)) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S2000x1) zero_offsets, View.ld_unit_zero (S := S128x128) zero_offsets, View.ld_unit_zero (S := S1x1) zero_offsets]
  obtain ⟨e00, e01, e10, e11, e20, e21, e30, e31, e50, e51⟩ := index_facts1 t
  funext y
  show k0_pay1 (iblk1 V c 0 t) (iblk1 V c 3 t) (iblk1 V c 1 t) (iblk1 V c 2 t) y
    = denseOf (V c main_v54) (V c main_arg2) (V c main_v55) (V c main_v14) (((cfg1.win 5).blk t).view.emb y)
  refine pay1_eq_denseOf (iblk1 V c 0 t) (iblk1 V c 3 t) (iblk1 V c 1 t) (iblk1 V c 2 t) (V c main_v54) (V c main_arg2) (V c main_v55) (V c main_v14) y (((cfg1.win 5).blk t).view.emb y) ?_ ?_ ?_ ?_ ?_
  · intro k
    show V c main_v54 (((cfg1.win 0).blk t).view.emb (ix2 (brow y) k)) = _
    refine congrArg (V c main_v54) (funext fun a => Fin.ext ?_)
    match a with
    | ⟨0, _⟩ => show win1_0.index t (0 : Fin 2) * 2000 + 1 * (y 0).val = win1_5.index t (0 : Fin 2) * 2000 + 1 * (y 0).val; omega
    | ⟨1, _⟩ => show win1_0.index t (1 : Fin 2) * 128 + 1 * k.val = k.val; omega
  · show V c main_v14 (((cfg1.win 3).blk t).view.emb (ix2 (brow y) (0 : Fin 1))) = _
    refine congrArg (V c main_v14) (funext fun a => Fin.ext ?_)
    match a with
    | ⟨0, _⟩ => show win1_3.index t (0 : Fin 2) * 2000 + 1 * (y 0).val = win1_5.index t (0 : Fin 2) * 2000 + 1 * (y 0).val; omega
    | ⟨1, _⟩ => show win1_3.index t (1 : Fin 2) * 1 + 1 * 0 = 0; omega
  · funext z
    show V c main_arg2 (((cfg1.win 1).blk t).view.emb z) = V c main_arg2 z
    refine congrArg (V c main_arg2) (funext fun a => Fin.ext ?_)
    match a with
    | ⟨0, _⟩ => show win1_1.index t (0 : Fin 2) * 128 + 1 * (z 0).val = (z 0).val; omega
    | ⟨1, _⟩ => show win1_1.index t (1 : Fin 2) * 128 + 1 * (z 1).val = (z 1).val; omega
  · funext z
    show V c main_v55 (((cfg1.win 2).blk t).view.emb z) = V c main_v55 z
    refine congrArg (V c main_v55) (funext fun a => Fin.ext ?_)
    match a with
    | ⟨0, _⟩ => show win1_2.index t (0 : Fin 2) * 1 + 1 * (z 0).val = (z 0).val; omega
    | ⟨1, _⟩ => show win1_2.index t (1 : Fin 2) * 1 + 1 * (z 1).val = (z 1).val; omega
  · refine Fin.ext ?_
    show (y 1).val = win1_5.index t (1 : Fin 2) * 128 + 1 * (y 1).val
    omega

theorem mem_blk1_5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v56_0).slice (win1_5.rect t)).set ↔ _
  rw [View.set_slice_whole, Rect.mem_set_unit]
  exact Iff.rfl

theorem tiled1_5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  have hlt : (i 0).val / 2000 < cfg1.N := by rw [hN]; omega
  refine ⟨⟨(i 0).val / 2000, hlt⟩, flush1_5 _, ?_⟩
  rw [mem_blk1_5]
  obtain ⟨e00, e01, e10, e11, e20, e21, e30, e31, e50, e51⟩ := index_facts1 ⟨(i 0).val / 2000, hlt⟩
  have ht : (⟨(i 0).val / 2000, hlt⟩ : Fin cfg1.N).val = (i 0).val / 2000 := rfl
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    omega
  | ⟨1, _⟩ =>
    show win1_5.index ⟨(i 0).val / 2000, hlt⟩ (1 : Fin 2) * 128 ≤ (i 1).val ∧ (i 1).val < win1_5.index ⟨(i 0).val / 2000, hlt⟩ (1 : Fin 2) * 128 + 128
    omega

/-- THE OUTPUT ARRAY after the kernel, from the arrays it was entered with. -/
theorem arr1_5 (c : Dev nD) :
    (dat1 V c).arrAt 5 cfg1.N = denseOf (V c main_v54) (V c main_arg2) (V c main_v55) (V c main_v14) :=
  (dat1 V c).arrAt_eq_of_cover 5 _ (fun t _ => flushed1_5_eq V c t) tiled1_5

end Cert.KernelIdeal.Layer1

end
-- ==== Proof.Region1b.lean ====
/-
  The second layer's kernel, second output: after the 25 grid points the second output array holds
  PReLU_a ((A ⊙ s) · W) ⊙ o of the whole arrays the kernel was entered with, by the same tiling of the rows.
-/
import proofs.«409004_j16501264351451_3_alg».proof.Proof.Dense

set_option maxRecDepth 16384

noncomputable section

namespace Cert.KernelIdeal.Layer1b

open Idealize.ShloMosaic Idealize.ShloMosaic.ValueIdx Idealize.ShloMosaic.TcCoe Idealize.SL.Sem
open Cert.KernelIdeal Cert.KernelIdeal.Gen Cert.KernelIdeal.Dense
open Idealize.ShloMosaic.Pipeline (Dat Cfg Window)

variable (V : (c : Dev nD) → (b : Ref sig .tc) → Buf (Elt Ideal) ((c : Thread nD τ).loc b))

/-- Where the windows' blocks lie at grid point t: the row-blocked windows at block row t, the weight matrix and the
    slope whole at every point. -/
theorem index_facts1b : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_6.index t (0 : Fin 2) = t.val ∧ win1_6.index t (1 : Fin 2) = 0 :=
  (by decide +kernel : ∀ t : Fin grid1.N, _)

theorem flushed1_6_eq (c : Dev nD) (t : Fin cfg1.N) :
    (dat1 V c).flushed 6 t = ((cfg1.win 6).blk t).view.read (Elt Ideal)
      (scaledOf (V c main_v54) (V c main_arg2) (V c main_v55) (V c main_v14) (V c main_v10)) := by
  show (cfg1.win 6).cut (grid1.coords t) ((dat1 V c).after 6 t) = _
  rw [after1_6]
  unfold out1_6
  rw [View.canon_unit_zero zero_offsets]
  simp only [View.ld_unit_zero (S := S2000x128) zero_offsets, View.ld_unit_zero (S := S2000x1) zero_offsets, View.ld_unit_zero (S := S128x128) zero_offsets, View.ld_unit_zero (S := S1x1) zero_offsets]
  obtain ⟨e00, e01, e10, e11, e20, e21, e30, e31, e40, e41, e60, e61⟩ := index_facts1b t
  funext y
  show k0_pay2 (iblk1 V c 0 t) (iblk1 V c 3 t) (iblk1 V c 1 t) (iblk1 V c 2 t) (iblk1 V c 4 t) y
    = scaledOf (V c main_v54) (V c main_arg2) (V c main_v55) (V c main_v14) (V c main_v10) (((cfg1.win 6).blk t).view.emb y)
  refine pay2_eq_scaledOf (iblk1 V c 0 t) (iblk1 V c 3 t) (iblk1 V c 1 t) (iblk1 V c 2 t) (iblk1 V c 4 t) (V c main_v54) (V c main_arg2) (V c main_v55) (V c main_v14) (V c main_v10) y (((cfg1.win 6).blk t).view.emb y) ?_ ?_ ?_ ?_ ?_ ?_
  · intro k
    show V c main_v54 (((cfg1.win 0).blk t).view.emb (ix2 (brow y) k)) = _
    refine congrArg (V c main_v54) (funext fun a => Fin.ext ?_)
    match a with
    | ⟨0, _⟩ => show win1_0.index t (0 : Fin 2) * 2000 + 1 * (y 0).val = win1_6.index t (0 : Fin 2) * 2000 + 1 * (y 0).val; omega
    | ⟨1, _⟩ => show win1_0.index t (1 : Fin 2) * 128 + 1 * k.val = k.val; omega
  · show V c main_v14 (((cfg1.win 3).blk t).view.emb (ix2 (brow y) (0 : Fin 1))) = _
    refine congrArg (V c main_v14) (funext fun a => Fin.ext ?_)
    match a with
    | ⟨0, _⟩ => show win1_3.index t (0 : Fin 2) * 2000 + 1 * (y 0).val = win1_6.index t (0 : Fin 2) * 2000 + 1 * (y 0).val; omega
    | ⟨1, _⟩ => show win1_3.index t (1 : Fin 2) * 1 + 1 * 0 = 0; omega
  · funext z
    show V c main_arg2 (((cfg1.win 1).blk t).view.emb z) = V c main_arg2 z
    refine congrArg (V c main_arg2) (funext fun a => Fin.ext ?_)
    match a with
    | ⟨0, _⟩ => show win1_1.index t (0 : Fin 2) * 128 + 1 * (z 0).val = (z 0).val; omega
    | ⟨1, _⟩ => show win1_1.index t (1 : Fin 2) * 128 + 1 * (z 1).val = (z 1).val; omega
  · funext z
    show V c main_v55 (((cfg1.win 2).blk t).view.emb z) = V c main_v55 z
    refine congrArg (V c main_v55) (funext fun a => Fin.ext ?_)
    match a with
    | ⟨0, _⟩ => show win1_2.index t (0 : Fin 2) * 1 + 1 * (z 0).val = (z 0).val; omega
    | ⟨1, _⟩ => show win1_2.index t (1 : Fin 2) * 1 + 1 * (z 1).val = (z 1).val; omega
  · refine Fin.ext ?_
    show (y 1).val = win1_6.index t (1 : Fin 2) * 128 + 1 * (y 1).val
    omega
  · show V c main_v10 (((cfg1.win 4).blk t).view.emb (ix2 (brow y) (0 : Fin 1))) = _
    refine congrArg (V c main_v10) (funext fun a => Fin.ext ?_)
    match a with
    | ⟨0, _⟩ => show win1_4.index t (0 : Fin 2) * 2000 + 1 * (y 0).val = win1_6.index t (0 : Fin 2) * 2000 + 1 * (y 0).val; omega
    | ⟨1, _⟩ => show win1_4.index t (1 : Fin 2) * 1 + 1 * 0 = 0; omega

theorem mem_blk1_6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v56_1).slice (win1_6.rect t)).set ↔ _
  rw [View.set_slice_whole, Rect.mem_set_unit]
  exact Iff.rfl

theorem tiled1_6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  have hlt : (i 0).val / 2000 < cfg1.N := by rw [hN]; omega
  refine ⟨⟨(i 0).val / 2000, hlt⟩, flush1_6 _, ?_⟩
  rw [mem_blk1_6]
  obtain ⟨e00, e01, e10, e11, e20, e21, e30, e31, e40, e41, e60, e61⟩ := index_facts1b ⟨(i 0).val / 2000, hlt⟩
  have ht : (⟨(i 0).val / 2000, hlt⟩ : Fin cfg1.N).val = (i 0).val / 2000 := rfl
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    omega
  | ⟨1, _⟩ =>
    show win1_6.index ⟨(i 0).val / 2000, hlt⟩ (1 : Fin 2) * 128 ≤ (i 1).val ∧ (i 1).val < win1_6.index ⟨(i 0).val / 2000, hlt⟩ (1 : Fin 2) * 128 + 128
    omega

/-- THE SECOND OUTPUT ARRAY after the kernel, from the arrays it was entered with. -/
theorem arr1_6 (c : Dev nD) :
    (dat1 V c).arrAt 6 cfg1.N = scaledOf (V c main_v54) (V c main_arg2) (V c main_v55) (V c main_v14) (V c main_v10) :=
  (dat1 V c).arrAt_eq_of_cover 6 _ (fun t _ => flushed1_6_eq V c t) tiled1_6

end Cert.KernelIdeal.Layer1b

end
-- ==== Proof.Region2.lean ====
/-
  The third layer's kernel, first output: after the 25 grid points the output array holds PReLU_a ((A ⊙ s) · W) of
  the whole arrays the kernel was entered with. Point t's block is rows 2000·t … 2000·t + 1999 of every row-blocked
  window and the whole of the weight matrix and the slope; the 25 row blocks tile the array.
-/
import proofs.«409004_j16501264351451_3_alg».proof.Proof.Dense

set_option maxRecDepth 16384

noncomputable section

namespace Cert.KernelIdeal.Layer2

open Idealize.ShloMosaic Idealize.ShloMosaic.ValueIdx Idealize.ShloMosaic.TcCoe Idealize.SL.Sem
open Cert.KernelIdeal Cert.KernelIdeal.Gen Cert.KernelIdeal.Dense
open Idealize.ShloMosaic.Pipeline (Dat Cfg Window)

variable (V : (c : Dev nD) → (b : Ref sig .tc) → Buf (Elt Ideal) ((c : Thread nD τ).loc b))

/-- Where the windows' blocks lie at grid point t: the row-blocked windows at block row t, the weight matrix and the
    slope whole at every point. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem flushed2_4_eq (c : Dev nD) (t : Fin cfg2.N) :
    (dat2 V c).flushed 4 t = ((cfg2.win 4).blk t).view.read (Elt Ideal)
      (denseOf (V c main_v76) (V c main_arg3) (V c main_v77) (V c main_v14)) := by
  show (cfg2.win 4).cut (grid2.coords t) ((dat2 V c).after 4 t) = _
  rw [after2_4]
  unfold out2_4
  rw [View.canon_unit_zero zero_offsets]
  simp only [View.ld_unit_zero (S := S2000x128) zero_offsets, View.ld_unit_zero (S := S2000x1) zero_offsets, View.ld_unit_zero (S := S128x128) zero_offsets, View.ld_unit_zero (S := S1x1) zero_offsets]
  obtain ⟨e00, e01, e10, e11, e20, e21, e30, e31, e50, e51⟩ := index_facts2 t
  funext y
  show k0_pay1 (iblk2 V c 0 t) (iblk2 V c 3 t) (iblk2 V c 1 t) (iblk2 V c 2 t) y
    = denseOf (V c main_v76) (V c main_arg3) (V c main_v77) (V c main_v14) (((cfg2.win 4).blk t).view.emb y)
  refine pay1_eq_denseOf (iblk2 V c 0 t) (iblk2 V c 3 t) (iblk2 V c 1 t) (iblk2 V c 2 t) (V c main_v76) (V c main_arg3) (V c main_v77) (V c main_v14) y (((cfg2.win 4).blk t).view.emb y) ?_ ?_ ?_ ?_ ?_
  · intro k
    show V c main_v76 (((cfg2.win 0).blk t).view.emb (ix2 (brow y) k)) = _
    refine congrArg (V c main_v76) (funext fun a => Fin.ext ?_)
    match a with
    | ⟨0, _⟩ => show win2_0.index t (0 : Fin 2) * 2000 + 1 * (y 0).val = win2_4.index t (0 : Fin 2) * 2000 + 1 * (y 0).val; omega
    | ⟨1, _⟩ => show win2_0.index t (1 : Fin 2) * 128 + 1 * k.val = k.val; omega
  · show V c main_v14 (((cfg2.win 3).blk t).view.emb (ix2 (brow y) (0 : Fin 1))) = _
    refine congrArg (V c main_v14) (funext fun a => Fin.ext ?_)
    match a with
    | ⟨0, _⟩ => show win2_3.index t (0 : Fin 2) * 2000 + 1 * (y 0).val = win2_4.index t (0 : Fin 2) * 2000 + 1 * (y 0).val; omega
    | ⟨1, _⟩ => show win2_3.index t (1 : Fin 2) * 1 + 1 * 0 = 0; omega
  · funext z
    show V c main_arg3 (((cfg2.win 1).blk t).view.emb z) = V c main_arg3 z
    refine congrArg (V c main_arg3) (funext fun a => Fin.ext ?_)
    match a with
    | ⟨0, _⟩ => show win2_1.index t (0 : Fin 2) * 128 + 1 * (z 0).val = (z 0).val; omega
    | ⟨1, _⟩ => show win2_1.index t (1 : Fin 2) * 128 + 1 * (z 1).val = (z 1).val; omega
  · funext z
    show V c main_v77 (((cfg2.win 2).blk t).view.emb z) = V c main_v77 z
    refine congrArg (V c main_v77) (funext fun a => Fin.ext ?_)
    match a with
    | ⟨0, _⟩ => show win2_2.index t (0 : Fin 2) * 1 + 1 * (z 0).val = (z 0).val; omega
    | ⟨1, _⟩ => show win2_2.index t (1 : Fin 2) * 1 + 1 * (z 1).val = (z 1).val; omega
  · refine Fin.ext ?_
    show (y 1).val = win2_4.index t (1 : Fin 2) * 128 + 1 * (y 1).val
    omega

theorem mem_blk2_4 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v78).slice (win2_4.rect t)).set ↔ _
  rw [View.set_slice_whole, Rect.mem_set_unit]
  exact Iff.rfl

theorem tiled2_4 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  have hlt : (i 0).val / 2000 < cfg2.N := by rw [hN]; omega
  refine ⟨⟨(i 0).val / 2000, hlt⟩, flush2_4 _, ?_⟩
  rw [mem_blk2_4]
  obtain ⟨e00, e01, e10, e11, e20, e21, e30, e31, e50, e51⟩ := index_facts2 ⟨(i 0).val / 2000, hlt⟩
  have ht : (⟨(i 0).val / 2000, hlt⟩ : Fin cfg2.N).val = (i 0).val / 2000 := rfl
  intro a
  match a with
  | ⟨0, _⟩ =>
    show win2_4.index ⟨(i 0).val / 2000, hlt⟩ (0 : Fin 2) * 2000 ≤ (i 0).val ∧ (i 0).val < win2_4.index ⟨(i 0).val / 2000, hlt⟩ (0 : Fin 2) * 2000 + 2000
    omega
  | ⟨1, _⟩ =>
    show win2_4.index ⟨(i 0).val / 2000, hlt⟩ (1 : Fin 2) * 128 ≤ (i 1).val ∧ (i 1).val < win2_4.index ⟨(i 0).val / 2000, hlt⟩ (1 : Fin 2) * 128 + 128
    omega

/-- THE OUTPUT ARRAY after the kernel, from the arrays it was entered with. -/
theorem arr2_4 (c : Dev nD) :
    (dat2 V c).arrAt 4 cfg2.N = denseOf (V c main_v76) (V c main_arg3) (V c main_v77) (V c main_v14) :=
  (dat2 V c).arrAt_eq_of_cover 4 _ (fun t _ => flushed2_4_eq V c t) tiled2_4

end Cert.KernelIdeal.Layer2

end
-- ==== Proof.PreRead.lean ====
/-
  The precondition read back: beside the finiteness of the float inputs it says that every target index of an
  edge is at least zero. A signed word that is at least zero is not below zero, so counting it from the end
  (adding the node count to a negative index) leaves it as it is.
-/
import proofs.«409004_j16501264351451_3_alg».proof.Pre_finite_inputs
import proofs.«409004_j16501264351451_3_alg».proof.Proof.Gen.Pre_finite_inputs
import Idealize.ShloMosaic.Lib.ReduceAll
import Idealize.ShloMosaic.Lib.ValueIdx

noncomputable section

namespace Cert.PreRead

open Idealize.ShloMosaic Cert.Pre_finite_inputs

instance : Subsingleton S_.Idx := ⟨fun a b => funext fun d => d.elim0⟩

/-- Under the precondition every entry of the target index vector is at least zero. -/
theorem dst_nonneg {F : FTy → Type} [FloatOps F] (x0 : FVec F S50000x128 .f32) (x1 x2 x3 : FVec F S128x128 .f32)
    (x4 x5 x6 : FVec F S1 .f32) (x7 x8 : IVec S800000 32) (x9 : IVec S50000 32)
    (h : fn (F := F) x0 x1 x2 x3 x4 x5 x6 x7 x8 x9 = fun _ => 1#1) (e : S800000.Idx) :
    IntOp.cmpi .sge (x8 e) 0#32 = 1#1 := by
  have h0 := congrFun h ValueIdx.ix0
  dsimp only [fn, fn_part1, fn_part2] at h0
  obtain ⟨-, h36⟩ := IntOp.andi_eq_one.1 h0
  exact Host.reduce_andi_all _ _ _ _ _ h36 e

/-- A word that is at least zero is not below zero. -/
theorem not_slt_of_sge (x : BitVec 32) (h : IntOp.cmpi .sge x 0#32 = 1#1) : IntOp.cmpi .slt x 0#32 = 0#1 := by
  unfold IntOp.cmpi at h ⊢
  simp only [BitVec.sle, BitVec.slt] at h ⊢
  have h0 : (0#32 : BitVec 32).toInt = 0 := by decide
  rw [h0] at h ⊢
  by_cases hx : 0 ≤ x.toInt
  · have hn : ¬ x.toInt < 0 := not_lt.mpr hx
    simp [hn]
  · exfalso
    simp [hx] at h

end Cert.PreRead

end
-- ==== Proof.Bridge.lean ====
/-
  The kernel program's vocabulary carried over to the specification's, over the extended reals.

  The kernel program and the reference name the same shape facts and the same scatter, gather and contraction records
  by different constants, lay a per-node factor out as a column by a change of shape where the reference repeats it
  by a broadcast, pass the carried rows through the narrower float format and back, and count the target indices
  from the end like the source indices. Over the extended reals a change of format is the identity, a column reads
  its vector's entry, and a target index that is at least zero is left as it is: so each of the kernel program's
  whole-array functions IS the specification's.
-/
import proofs.«409004_j16501264351451_3_alg».proof.Proof.Dense
import proofs.«409004_j16501264351451_3_alg».proof.Proof.KernelHost
import proofs.«409004_j16501264351451_3_alg».proof.Proof.PreRead

set_option maxRecDepth 16384

noncomputable section

namespace Cert.KernelIdeal.Bridge

open Idealize.ShloMosaic Idealize.ShloMosaic.ValueIdx Cert.KernelIdeal Cert.KernelIdeal.HostRead Cert.KernelIdeal.Dense

/-! ## The records and the whole-array functions that differ only in name -/

/-- The normalising factor: the two programs' scatter records have the same fields. -/
theorem invK_eq (e : IVec S800000 32) : invK (F := Ideal) e = Cert.Gcn.invSqrtDeg (F := Ideal) e := rfl

/-- The rows of each graph summed: likewise. -/
theorem poolK_eq (h : FVec Ideal S50000x128 .f32) (gid : IVec S50000 32) : poolK (F := Ideal) h gid = Cert.Gcn.pool (F := Ideal) h gid := rfl

/-! ## An index that is at least zero is not counted from the end -/

theorem wrapK_nonneg (e : IVec S800000 32) (h : ∀ i, IntOp.cmpi .sge (e i) 0#32 = 1#1) : wrapK e = e := by
  funext i
  show Scalar.select (IntOp.cmpi .slt (e i) 0#32) _ (e i) = e i
  rw [Cert.PreRead.not_slt_of_sge _ (h i), select_zero]

/-! ## A vector laid out as a column, a one-entry vector as a one-by-one array -/

theorem colK_apply (v : FVec Ideal S50000 .f32) (n : Fin 50000) : colK v (ix2 n (0 : Fin 1)) = v (ix1 n) := by
  unfold colK
  exact shapeCast_apply v _ _ _ (by
    rw [Shape.rowMajor_val_one, Shape.rowMajor_val_two]
    show n.val = n.val * 1 + 0
    omega)

theorem cellK_apply (a : FVec Ideal S1 .f32) : cellK a (ix2 (0 : Fin 1) (0 : Fin 1)) = a (ix1 (0 : Fin 1)) := by
  unfold cellK
  exact shapeCast_apply a _ _ _ (by
    rw [Shape.rowMajor_val_one, Shape.rowMajor_val_two]
    show (0 : ℕ) = 0 * 1 + 0
    omega)

/-- Every entry of a node array is the entry at its row and its column. -/
theorem node_eq (i : S50000x128.Idx) : i = ix2 (nrow i) (ncol i) := by
  funext a; match a with | ⟨0, _⟩ => rfl | ⟨1, _⟩ => rfl

/-- A factor column repeated along each node's row reads the node's factor. -/
theorem colK_row_apply (v : FVec Ideal S50000 .f32) (n : Fin 50000) (j : Fin 128) :
    (broadcastInDim S50000x128 ![0, 1] Facts₀.bcast_S50000x1_S50000x128_0_1 (colK v) : FVec Ideal S50000x128 .f32) (ix2 n j) = v (ix1 n) := by
  rw [broadcastInDim_apply _ Facts₀.bcast_S50000x1_S50000x128_0_1 _ (ix2 n j) (ix2 n (0 : Fin 1)) (fun a => match a with
    | ⟨0, _⟩ => by show n.val = if (50000 : Nat) = 1 then 0 else n.val; rw [if_neg (by decide)]
    | ⟨1, _⟩ => by show 0 = if (1 : Nat) = 1 then 0 else j.val; rw [if_pos rfl])]
  exact colK_apply v n

/-! ## The scaled features, the aggregation, the dense part -/

/-- The features scaled by a factor column: the narrower format changes nothing over the extended reals. -/
theorem scaledK_eq (x : FVec Ideal S50000x128 .f32) (v : FVec Ideal S50000 .f32) :
    (scaledK x (colK v) : FVec Ideal S50000x128 .f32) = mulf x (Cert.Gcn.rows v) := by
  funext i
  rw [node_eq i]
  show x (ix2 (nrow i) (ncol i)) * (broadcastInDim S50000x128 ![0, 1] Facts₀.bcast_S50000x1_S50000x128_0_1 (colK v) : FVec Ideal S50000x128 .f32) (ix2 (nrow i) (ncol i))
    = x (ix2 (nrow i) (ncol i)) * Cert.Gcn.rows v (ix2 (nrow i) (ncol i))
  rw [colK_row_apply, Cert.Gcn.rows_apply]

/-- The aggregation: the target indices are at least zero, so counting them from the end leaves them; the carried rows'
    passage through the narrower format and back changes nothing over the extended reals. -/
theorem aggK_eq (x : FVec Ideal S50000x128 .f32) (src dst : IVec S800000 32) (hdst : ∀ i, IntOp.cmpi .sge (dst i) 0#32 = 1#1) :
    aggK (F := Ideal) x src dst = Cert.Gcn.aggregate (F := Ideal) x src dst := by
  unfold aggK Cert.Gcn.aggregate
  rw [wrapK_nonneg dst hdst]
  rfl

/-- The dense part, entry by entry. -/
theorem denseOf_eq (A : FVec Ideal S50000x128 .f32) (W : FVec Ideal S128x128 .f32) (a : FVec Ideal S1 .f32) (s : FVec Ideal S50000 .f32) :
    denseOf A W (cellK a) (colK s) = Cert.Gcn.dense (F := Ideal) A W a s := by
  funext i
  conv_rhs => rw [node_eq i]
  rw [Cert.Gcn.dense_apply]
  unfold denseOf
  rw [cellK_apply, colK_apply]

/-- The dense part with each row scaled by a second factor. -/
theorem scaledOf_eq (A : FVec Ideal S50000x128 .f32) (W : FVec Ideal S128x128 .f32) (a : FVec Ideal S1 .f32) (s o : FVec Ideal S50000 .f32) :
    scaledOf A W (cellK a) (colK s) (colK o) = mulf (Cert.Gcn.dense (F := Ideal) A W a s) (Cert.Gcn.rows o) := by
  funext i
  have key : Cert.Gcn.rows o i = o (ix1 (nrow i)) := by
    conv_lhs => rw [node_eq i]
    exact Cert.Gcn.rows_apply o (nrow i) (ncol i)
  unfold scaledOf
  rw [denseOf_eq, colK_apply, mulf_apply, key]

end Cert.KernelIdeal.Bridge

end
-- ==== Proof.KernelValue.lean ====
/-
  The kernel program's two results as functions of its arguments: the buffers followed from the launch through the
  four stretches of host operations and the three dense kernels.

  At each boundary the live buffers are named: the two factor columns, the aggregated rows the next kernel reads,
  the slope, each kernel's node output and its scaled copy, the pooled blocks. Every target index is at least zero, so
  counting it from the end leaves it alone and the kernel program's scatter is the specification's; the factor columns
  and the one-by-one slope are the specification's vectors laid out anew; each dense kernel leaves the specification's
  dense layer. So the last boundary holds the third layer's node features and the three pooled blocks side by side.
-/
import proofs.«409004_j16501264351451_3_alg».proof.Proof.KernelHost
import proofs.«409004_j16501264351451_3_alg».proof.Proof.Region0
import proofs.«409004_j16501264351451_3_alg».proof.Proof.Region0b
import proofs.«409004_j16501264351451_3_alg».proof.Proof.Region1
import proofs.«409004_j16501264351451_3_alg».proof.Proof.Region1b
import proofs.«409004_j16501264351451_3_alg».proof.Proof.Region2
import proofs.«409004_j16501264351451_3_alg».proof.Proof.Bridge

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.HostRead Cert.KernelIdeal.Dense Cert.KernelIdeal.Bridge
open Cert.KernelIdeal.Gen (W0 W1 W2 W3 W4 W5 W6 W7 V1 V3 V5 dat0 dat1 dat2 W2_arr W2_of_ne W4_arr W4_of_ne W6_arr W6_of_ne A_eq0 A_eq1 A_eq2)

variable (m : (ℓ : Loc nD τ sig) → Buf (Elt Ideal) ℓ) (ρ : Dev nD → PrngReg) (c : Dev nD)

/-- The arguments as launched. -/
abbrev xFeat := (m ((c.tc : Thread nD τ).loc main_arg0))
abbrev xW0 := (m ((c.tc : Thread nD τ).loc main_arg1))
abbrev xW1 := (m ((c.tc : Thread nD τ).loc main_arg2))
abbrev xW2 := (m ((c.tc : Thread nD τ).loc main_arg3))
abbrev xA0 := (m ((c.tc : Thread nD τ).loc main_arg4))
abbrev xA1 := (m ((c.tc : Thread nD τ).loc main_arg5))
abbrev xA2 := (m ((c.tc : Thread nD τ).loc main_arg6))
abbrev xSrc := (m ((c.tc : Thread nD τ).loc main_arg7))
abbrev xDst := (m ((c.tc : Thread nD τ).loc main_arg8))
abbrev xGid := (m ((c.tc : Thread nD τ).loc main_arg9))

/-- The three layers' node features of the specification, at the launched arguments. -/
abbrev n1 := Cert.Gcn.node1 (F := Ideal) (xFeat m c) (xW0 m c) (xA0 m c) (xSrc m c) (xDst m c)
abbrev n2 := Cert.Gcn.node2 (F := Ideal) (xFeat m c) (xW0 m c) (xW1 m c) (xA0 m c) (xA1 m c) (xSrc m c) (xDst m c)
abbrev n3 := Cert.Gcn.node3 (F := Ideal) (xFeat m c) (xW0 m c) (xW1 m c) (xW2 m c) (xA0 m c) (xA1 m c) (xA2 m c) (xSrc m c) (xDst m c)
/-- The two factor vectors. -/
abbrev oInv := Cert.Gcn.invSqrtDeg (F := Ideal) (xSrc m c)
abbrev iInv := Cert.Gcn.invSqrtDeg (F := Ideal) (xDst m c)

/-! ## At the first kernel's entry -/

theorem e1_v10 : V1 m ρ c main_v10 = colK (oInv m c) :=
  (first_v10 (W0 m ρ c)).trans (congrArg colK (invK_eq _))
theorem e1_v14 : V1 m ρ c main_v14 = colK (iInv m c) :=
  (first_v14 (W0 m ρ c)).trans (congrArg colK (invK_eq _))
theorem e1_v34 : V1 m ρ c main_v34 = cellK (F := Ideal) (xA0 m c) := first_v34 (W0 m ρ c)
theorem e1_v33 (hdst : ∀ i, IntOp.cmpi .sge (xDst m c i) 0#32 = 1#1) :
    V1 m ρ c main_v33 = Cert.Gcn.aggregate (F := Ideal) (mulf (xFeat m c) (Cert.Gcn.rows (oInv m c))) (xSrc m c) (xDst m c) := by
  refine (first_v33 (W0 m ρ c)).trans ?_
  show aggK (F := Ideal) (scaledK (F := Ideal) (xFeat m c) (colK (F := Ideal) (invK (F := Ideal) (xSrc m c)))) (xSrc m c) (xDst m c) = _
  rw [invK_eq, scaledK_eq, aggK_eq _ _ _ hdst]
theorem e1_arg (b : Ref sig .tc) (hb : b ∈ [main_arg1, main_arg2, main_arg3, main_arg5, main_arg6, main_arg7, main_arg8, main_arg9]) :
    W1 m ρ c (Proc.devRef .tc b) = W0 m ρ c (Proc.devRef .tc b) := first_keeps (W0 m ρ c) b hb

/-! ## After the first kernel -/

theorem x1_h (hdst : ∀ i, IntOp.cmpi .sge (xDst m c i) 0#32 = 1#1) :
    W2 m ρ c (Proc.devRef .tc main_v35_0) = n1 m c := by
  refine ((W2_arr m ρ c 5).trans (Cert.KernelIdeal.Layer0.arr0_5 (V1 m ρ) c)).trans ?_
  rw [e1_v33 m ρ c hdst, e1_v34, e1_v14]
  rw [show V1 m ρ c main_arg1 = xW0 m c from e1_arg m ρ c main_arg1 (by simp)]
  exact denseOf_eq _ _ _ _
theorem x1_hs (hdst : ∀ i, IntOp.cmpi .sge (xDst m c i) 0#32 = 1#1) :
    W2 m ρ c (Proc.devRef .tc main_v35_1) = mulf (n1 m c) (Cert.Gcn.rows (oInv m c)) := by
  refine ((W2_arr m ρ c 6).trans (Cert.KernelIdeal.Layer0b.arr0_6 (V1 m ρ) c)).trans ?_
  rw [e1_v33 m ρ c hdst, e1_v34, e1_v14, e1_v10]
  rw [show V1 m ρ c main_arg1 = xW0 m c from e1_arg m ρ c main_arg1 (by simp)]
  exact scaledOf_eq _ _ _ _ _
theorem x1_v14 : W2 m ρ c (Proc.devRef .tc main_v14) = colK (iInv m c) :=
  ((W2_arr m ρ c 3).trans (((dat0 (V1 m ρ) c).arrAt_in 3 rfl _).trans (A_eq0 (V1 m ρ) c 3))).trans (e1_v14 m ρ c)
theorem x1_v10 : W2 m ρ c (Proc.devRef .tc main_v10) = colK (oInv m c) :=
  ((W2_arr m ρ c 4).trans (((dat0 (V1 m ρ) c).arrAt_in 4 rfl _).trans (A_eq0 (V1 m ρ) c 4))).trans (e1_v10 m ρ c)
theorem x1_arg2 : W2 m ρ c (Proc.devRef .tc main_arg2) = xW1 m c := (W2_of_ne m ρ c main_arg2 (by decide)).trans (e1_arg m ρ c main_arg2 (by simp))
theorem x1_arg3 : W2 m ρ c (Proc.devRef .tc main_arg3) = xW2 m c := (W2_of_ne m ρ c main_arg3 (by decide)).trans (e1_arg m ρ c main_arg3 (by simp))
theorem x1_arg5 : W2 m ρ c (Proc.devRef .tc main_arg5) = xA1 m c := (W2_of_ne m ρ c main_arg5 (by decide)).trans (e1_arg m ρ c main_arg5 (by simp))
theorem x1_arg6 : W2 m ρ c (Proc.devRef .tc main_arg6) = xA2 m c := (W2_of_ne m ρ c main_arg6 (by decide)).trans (e1_arg m ρ c main_arg6 (by simp))
theorem x1_arg7 : W2 m ρ c (Proc.devRef .tc main_arg7) = xSrc m c := (W2_of_ne m ρ c main_arg7 (by decide)).trans (e1_arg m ρ c main_arg7 (by simp))
theorem x1_arg8 : W2 m ρ c (Proc.devRef .tc main_arg8) = xDst m c := (W2_of_ne m ρ c main_arg8 (by decide)).trans (e1_arg m ρ c main_arg8 (by simp))
theorem x1_arg9 : W2 m ρ c (Proc.devRef .tc main_arg9) = xGid m c := (W2_of_ne m ρ c main_arg9 (by decide)).trans (e1_arg m ρ c main_arg9 (by simp))

/-! ## At the second kernel's entry -/

theorem e2_v38 (hdst : ∀ i, IntOp.cmpi .sge (xDst m c i) 0#32 = 1#1) :
    W3 m ρ c (Proc.devRef .tc main_v38) = Cert.Gcn.pool (F := Ideal) (n1 m c) (xGid m c) := by
  refine (second_v38 (W2 m ρ c)).trans ?_
  rw [x1_h m ρ c hdst, x1_arg9, poolK_eq]
theorem e2_v54 (hdst : ∀ i, IntOp.cmpi .sge (xDst m c i) 0#32 = 1#1) :
    V3 m ρ c main_v54 = Cert.Gcn.aggregate (F := Ideal) (mulf (n1 m c) (Cert.Gcn.rows (oInv m c))) (xSrc m c) (xDst m c) := by
  refine (second_v54 (W2 m ρ c)).trans ?_
  rw [x1_hs m ρ c hdst, x1_arg7, x1_arg8, aggK_eq _ _ _ hdst]
theorem e2_v55 : V3 m ρ c main_v55 = cellK (F := Ideal) (xA1 m c) := by
  refine (second_v55 (W2 m ρ c)).trans ?_
  rw [x1_arg5]
theorem e2_v14 : V3 m ρ c main_v14 = colK (iInv m c) := (second_keeps (W2 m ρ c) main_v14 (by simp)).trans (x1_v14 m ρ c)
theorem e2_v10 : V3 m ρ c main_v10 = colK (oInv m c) := (second_keeps (W2 m ρ c) main_v10 (by simp)).trans (x1_v10 m ρ c)
theorem e2_arg2 : V3 m ρ c main_arg2 = xW1 m c := (second_keeps (W2 m ρ c) main_arg2 (by simp)).trans (x1_arg2 m ρ c)
theorem e2_arg3 : W3 m ρ c (Proc.devRef .tc main_arg3) = xW2 m c := (second_keeps (W2 m ρ c) main_arg3 (by simp)).trans (x1_arg3 m ρ c)
theorem e2_arg6 : W3 m ρ c (Proc.devRef .tc main_arg6) = xA2 m c := (second_keeps (W2 m ρ c) main_arg6 (by simp)).trans (x1_arg6 m ρ c)
theorem e2_arg7 : W3 m ρ c (Proc.devRef .tc main_arg7) = xSrc m c := (second_keeps (W2 m ρ c) main_arg7 (by simp)).trans (x1_arg7 m ρ c)
theorem e2_arg8 : W3 m ρ c (Proc.devRef .tc main_arg8) = xDst m c := (second_keeps (W2 m ρ c) main_arg8 (by simp)).trans (x1_arg8 m ρ c)
theorem e2_arg9 : W3 m ρ c (Proc.devRef .tc main_arg9) = xGid m c := (second_keeps (W2 m ρ c) main_arg9 (by simp)).trans (x1_arg9 m ρ c)

/-! ## After the second kernel -/

theorem x2_h (hdst : ∀ i, IntOp.cmpi .sge (xDst m c i) 0#32 = 1#1) :
    W4 m ρ c (Proc.devRef .tc main_v56_0) = n2 m c := by
  refine ((W4_arr m ρ c 5).trans (Cert.KernelIdeal.Layer1.arr1_5 (V3 m ρ) c)).trans ?_
  rw [e2_v54 m ρ c hdst, e2_v55, e2_v14, e2_arg2]
  exact denseOf_eq _ _ _ _
theorem x2_hs (hdst : ∀ i, IntOp.cmpi .sge (xDst m c i) 0#32 = 1#1) :
    W4 m ρ c (Proc.devRef .tc main_v56_1) = mulf (n2 m c) (Cert.Gcn.rows (oInv m c)) := by
  refine ((W4_arr m ρ c 6).trans (Cert.KernelIdeal.Layer1b.arr1_6 (V3 m ρ) c)).trans ?_
  rw [e2_v54 m ρ c hdst, e2_v55, e2_v14, e2_v10, e2_arg2]
  exact scaledOf_eq _ _ _ _ _
theorem x2_v14 : W4 m ρ c (Proc.devRef .tc main_v14) = colK (iInv m c) :=
  ((W4_arr m ρ c 3).trans (((dat1 (V3 m ρ) c).arrAt_in 3 rfl _).trans (A_eq1 (V3 m ρ) c 3))).trans (e2_v14 m ρ c)
theorem x2_v38 (hdst : ∀ i, IntOp.cmpi .sge (xDst m c i) 0#32 = 1#1) :
    W4 m ρ c (Proc.devRef .tc main_v38) = Cert.Gcn.pool (F := Ideal) (n1 m c) (xGid m c) :=
  (W4_of_ne m ρ c main_v38 (by decide)).trans (e2_v38 m ρ c hdst)
theorem x2_arg3 : W4 m ρ c (Proc.devRef .tc main_arg3) = xW2 m c := (W4_of_ne m ρ c main_arg3 (by decide)).trans (e2_arg3 m ρ c)
theorem x2_arg6 : W4 m ρ c (Proc.devRef .tc main_arg6) = xA2 m c := (W4_of_ne m ρ c main_arg6 (by decide)).trans (e2_arg6 m ρ c)
theorem x2_arg7 : W4 m ρ c (Proc.devRef .tc main_arg7) = xSrc m c := (W4_of_ne m ρ c main_arg7 (by decide)).trans (e2_arg7 m ρ c)
theorem x2_arg8 : W4 m ρ c (Proc.devRef .tc main_arg8) = xDst m c := (W4_of_ne m ρ c main_arg8 (by decide)).trans (e2_arg8 m ρ c)
theorem x2_arg9 : W4 m ρ c (Proc.devRef .tc main_arg9) = xGid m c := (W4_of_ne m ρ c main_arg9 (by decide)).trans (e2_arg9 m ρ c)

/-! ## At the third kernel's entry -/

theorem e3_v60 (hdst : ∀ i, IntOp.cmpi .sge (xDst m c i) 0#32 = 1#1) :
    W5 m ρ c (Proc.devRef .tc main_v60)
      = concatenate S500x256 1 [⟨S500x128, Cert.Gcn.pool (F := Ideal) (n1 m c) (xGid m c)⟩, ⟨S500x128, Cert.Gcn.pool (F := Ideal) (n2 m c) (xGid m c)⟩] Facts₀.concatenates_S500x128_S500x128_S500x256_d1 := by
  refine (third_v60 (W4 m ρ c)).trans ?_
  rw [x2_v38 m ρ c hdst, x2_h m ρ c hdst, x2_arg9, poolK_eq]
theorem e3_v76 (hdst : ∀ i, IntOp.cmpi .sge (xDst m c i) 0#32 = 1#1) :
    V5 m ρ c main_v76 = Cert.Gcn.aggregate (F := Ideal) (mulf (n2 m c) (Cert.Gcn.rows (oInv m c))) (xSrc m c) (xDst m c) := by
  refine (third_v76 (W4 m ρ c)).trans ?_
  rw [x2_hs m ρ c hdst, x2_arg7, x2_arg8, aggK_eq _ _ _ hdst]
theorem e3_v77 : V5 m ρ c main_v77 = cellK (F := Ideal) (xA2 m c) := by
  refine (third_v77 (W4 m ρ c)).trans ?_
  rw [x2_arg6]
theorem e3_v14 : V5 m ρ c main_v14 = colK (iInv m c) := (third_keeps (W4 m ρ c) main_v14 (by simp)).trans (x2_v14 m ρ c)
theorem e3_arg3 : V5 m ρ c main_arg3 = xW2 m c := (third_keeps (W4 m ρ c) main_arg3 (by simp)).trans (x2_arg3 m ρ c)
theorem e3_arg9 : W5 m ρ c (Proc.devRef .tc main_arg9) = xGid m c := (third_keeps (W4 m ρ c) main_arg9 (by simp)).trans (x2_arg9 m ρ c)

/-! ## After the third kernel, and the two results -/

theorem x3_h (hdst : ∀ i, IntOp.cmpi .sge (xDst m c i) 0#32 = 1#1) :
    W6 m ρ c (Proc.devRef .tc main_v78) = n3 m c := by
  refine ((W6_arr m ρ c 4).trans (Cert.KernelIdeal.Layer2.arr2_4 (V5 m ρ) c)).trans ?_
  rw [e3_v76 m ρ c hdst, e3_v77, e3_v14, e3_arg3]
  exact denseOf_eq _ _ _ _
theorem x3_v60 (hdst : ∀ i, IntOp.cmpi .sge (xDst m c i) 0#32 = 1#1) :
    W6 m ρ c (Proc.devRef .tc main_v60)
      = concatenate S500x256 1 [⟨S500x128, Cert.Gcn.pool (F := Ideal) (n1 m c) (xGid m c)⟩, ⟨S500x128, Cert.Gcn.pool (F := Ideal) (n2 m c) (xGid m c)⟩] Facts₀.concatenates_S500x128_S500x128_S500x256_d1 :=
  (W6_of_ne m ρ c main_v60 (by decide)).trans (e3_v60 m ρ c hdst)
theorem x3_arg9 : W6 m ρ c (Proc.devRef .tc main_arg9) = xGid m c := (W6_of_ne m ρ c main_arg9 (by decide)).trans (e3_arg9 m ρ c)

/-- THE FIRST RESULT: the third layer's node features. -/
theorem nodes (hdst : ∀ i, IntOp.cmpi .sge (xDst m c i) 0#32 = 1#1) :
    W7 m ρ c (Proc.devRef .tc main_v78) = n3 m c :=
  (last_keeps (W6 m ρ c)).trans (x3_h m ρ c hdst)

/-- THE SECOND RESULT: the three layers' pooled rows side by side. -/
theorem pools (hdst : ∀ i, IntOp.cmpi .sge (xDst m c i) 0#32 = 1#1) :
    W7 m ρ c (Proc.devRef .tc main_v82)
      = Cert.Gcn.pooled (F := Ideal) (xFeat m c) (xW0 m c) (xW1 m c) (xW2 m c) (xA0 m c) (xA1 m c) (xA2 m c) (xSrc m c) (xDst m c) (xGid m c) := by
  refine (last_v82 (W6 m ρ c)).trans ?_
  rw [x3_v60 m ρ c hdst, x3_h m ρ c hdst, x3_arg9, poolK_eq]
  rfl

end Cert.KernelIdeal.Result

end
-- ==== Proof.RefRun.lean ====
/-
  The reference program's run, stretch by stretch.

  @main is one straight line of 113 host operations. The line is cut at its mathematical joints into seven stretches:
  the two degree vectors and their inverse square roots; then three times a layer (scale the rows by the source-side
  factor, carry every edge's source row to its target and sum, scale by the target-side factor, multiply by the weight
  matrix, PReLU) followed by its pooling (the rows of each graph summed, the block laid beside the earlier ones).
  For each stretch one lemma, over ARBITRARY buffer contents, reads the buffer it computes as the specification's function
  of the buffers it reads, and one lemma says every buffer it does not write keeps its contents. The stretches are then
  chained: `stK V` is what the buffers hold after the first K stretches, and each of its facts follows from the
  stretch's lemma and the facts of the stage before. The whole line's run states the seventh stage at the launch contents.
-/
import proofs.«409004_j16501264351451_3_alg».proof.Proof.Spec
import proofs.«409004_j16501264351451_3_alg».proof.Proof.RefOps
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operation list in seven stretches

The same operations as the program's list, in the same order, spelt a stretch at a time (`ops_eq` below: their
concatenation IS the program's list). -/

/-- The two degree vectors, clamped below by one, and their inverse square roots: the operations up to %12. -/
abbrev opsDeg : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg7 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg8 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v7 (broadcastInDim S50000 ![] bcast_S_S50000 : (⟨S_, .f32⟩ : BufTy).Contents (Elt F) → (⟨S50000, .f32⟩ : BufTy).Contents (Elt F)),
    binary main_v3 main_v7 main_v8 (maximumf : (⟨S50000, .f32⟩ : BufTy).Contents (Elt F) → (⟨S50000, .f32⟩ : BufTy).Contents (Elt F) → (⟨S50000, .f32⟩ : BufTy).Contents (Elt F)),
    unary main_v8 main_v9 (Host.rsqrt : (⟨S50000, .f32⟩ : BufTy).Contents (Elt F) → (⟨S50000, .f32⟩ : BufTy).Contents (Elt F)),
    nullary main_cst_3 (constant S_ .f32 0x3F800000#32),
    unary main_cst_3 main_v10 (broadcastInDim S50000 ![] bcast_S_S50000 : (⟨S_, .f32⟩ : BufTy).Contents (Elt F) → (⟨S50000, .f32⟩ : BufTy).Contents (Elt F)),
    binary main_v6 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)) ]

/-- The first layer: the operations %13 to %35. -/
abbrev opsLayer1 : List (HloOp τ sig (Elt F)) :=
  [ unary main_v9 main_v13 (broadcastInDim S50000x1 ![0] bcast_S50000_S50000x1_0 : (⟨S50000, .f32⟩ : BufTy).Contents (Elt F) → (⟨S50000x1, .f32⟩ : BufTy).Contents (Elt F)),
    unary main_v13 main_v14 (broadcastInDim S50000x128 ![0, 1] bcast_S50000x1_S50000x128_0_1 : (⟨S50000x1, .f32⟩ : BufTy).Contents (Elt F) → (⟨S50000x128, .f32⟩ : BufTy).Contents (Elt F)),
    binary main_arg0 main_v14 main_v15 (mulf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_arg7 main_v16 main_v17 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v18 (broadcastInDim S800000 ![] bcast_S_S800000 : (⟨S_, .i32⟩ : BufTy).Contents (Elt F) → (⟨S800000, .i32⟩ : BufTy).Contents (Elt F)),
    binary main_arg7 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_arg7 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v15 main_v21 main_v22 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_5 (constant S_ .f32 0x00000000#32),
    unary main_cst_5 main_v23 (broadcastInDim S50000x128 ![] bcast_S_S50000x128 : (⟨S_, .f32⟩ : BufTy).Contents (Elt F) → (⟨S50000x128, .f32⟩ : BufTy).Contents (Elt F)),
    unary main_arg8 main_v24 (broadcastInDim S800000x1 ![0] bcast_S800000_S800000x1_0 : (⟨S800000, .i32⟩ : BufTy).Contents (Elt F) → (⟨S800000x1, .i32⟩ : BufTy).Contents (Elt F)),
    ternary main_v23 main_v24 main_v22 main_v25 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v26 (broadcastInDim S50000x1 ![0] bcast_S50000_S50000x1_0 : (⟨S50000, .f32⟩ : BufTy).Contents (Elt F) → (⟨S50000x1, .f32⟩ : BufTy).Contents (Elt F)),
    unary main_v26 main_v27 (broadcastInDim S50000x128 ![0, 1] bcast_S50000x1_S50000x128_0_1 : (⟨S50000x1, .f32⟩ : BufTy).Contents (Elt F) → (⟨S50000x128, .f32⟩ : BufTy).Contents (Elt F)),
    binary main_v25 main_v27 main_v28 (mulf : (⟨S50000x128, .f32⟩ : BufTy).Contents (Elt F) → (⟨S50000x128, .f32⟩ : BufTy).Contents (Elt F) → (⟨S50000x128, .f32⟩ : BufTy).Contents (Elt F)),
    binary main_v28 main_arg1 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_6 (constant S_ .f32 0x00000000#32),
    unary main_cst_6 main_v30 (broadcastInDim S50000x128 ![] bcast_S_S50000x128 : (⟨S_, .f32⟩ : BufTy).Contents (Elt F) → (⟨S50000x128, .f32⟩ : BufTy).Contents (Elt F)),
    binary main_v29 main_v30 main_v31 (cmpf .ogt : (⟨S50000x128, .f32⟩ : BufTy).Contents (Elt F) → (⟨S50000x128, .f32⟩ : BufTy).Contents (Elt F) → (⟨S50000x128, .i1⟩ : BufTy).Contents (Elt F)),
    unary main_arg4 main_v32 (broadcastInDim S1x1 ![1] bcast_S1_S1x1_1 : (⟨S1, .f32⟩ : BufTy).Contents (Elt F) → (⟨S1x1, .f32⟩ : BufTy).Contents (Elt F)),
    unary main_v32 main_v33 (broadcastInDim S50000x128 ![0, 1] bcast_S1x1_S50000x128_0_1 : (⟨S1x1, .f32⟩ : BufTy).Contents (Elt F) → (⟨S50000x128, .f32⟩ : BufTy).Contents (Elt F)),
    binary main_v33 main_v29 main_v34 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v31) (TRef.of (T := ⟨S50000x128, .f32⟩) main_v29) (TRef.of (T := ⟨S50000x128, .f32⟩) main_v34) (TRef.of (T := ⟨S50000x128, .f32⟩) main_v35) select ]

/-- The first layer's rows summed per graph: the operations up to %38. -/
abbrev opsPool1 : List (HloOp τ sig (Elt F)) :=
  [ nullary main_cst_7 (constant S_ .f32 0x00000000#32),
    unary main_cst_7 main_v36 (broadcastInDim S500x128 ![] bcast_S_S500x128 : (⟨S_, .f32⟩ : BufTy).Contents (Elt F) → (⟨S500x128, .f32⟩ : BufTy).Contents (Elt F)),
    unary main_arg9 main_v37 (broadcastInDim S50000x1 ![0] bcast_S50000_S50000x1_0 : (⟨S50000, .i32⟩ : BufTy).Contents (Elt F) → (⟨S50000x1, .i32⟩ : BufTy).Contents (Elt F)),
    ternary main_v36 main_v37 main_v35 main_v38 ((fun x i u => Host.scatterAdd scatter_S500x128_S50000x1_S50000x128_1_0_0_1 x i u) : (⟨S500x128, .f32⟩ : BufTy).Contents (Elt F) → (⟨S50000x1, .i32⟩ : BufTy).Contents (Elt F) → (⟨S50000x128, .f32⟩ : BufTy).Contents (Elt F) → (⟨S500x128, .f32⟩ : BufTy).Contents (Elt F)) ]

/-- The second layer: the operations %39 to %61. -/
abbrev opsLayer2 : List (HloOp τ sig (Elt F)) :=
  [ unary main_v9 main_v39 (broadcastInDim S50000x1 ![0] bcast_S50000_S50000x1_0 : (⟨S50000, .f32⟩ : BufTy).Contents (Elt F) → (⟨S50000x1, .f32⟩ : BufTy).Contents (Elt F)),
    unary main_v39 main_v40 (broadcastInDim S50000x128 ![0, 1] bcast_S50000x1_S50000x128_0_1 : (⟨S50000x1, .f32⟩ : BufTy).Contents (Elt F) → (⟨S50000x128, .f32⟩ : BufTy).Contents (Elt F)),
    binary main_v35 main_v40 main_v41 (mulf : (⟨S50000x128, .f32⟩ : BufTy).Contents (Elt F) → (⟨S50000x128, .f32⟩ : BufTy).Contents (Elt F) → (⟨S50000x128, .f32⟩ : BufTy).Contents (Elt F)),
    nullary main_c_8 (constantI S_ 32 0#32),
    unary main_c_8 main_v42 (broadcastInDim S800000 ![] bcast_S_S800000 : (⟨S_, .i32⟩ : BufTy).Contents (Elt F) → (⟨S800000, .i32⟩ : BufTy).Contents (Elt F)),
    binary main_arg7 main_v42 main_v43 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v44 (broadcastInDim S800000 ![] bcast_S_S800000 : (⟨S_, .i32⟩ : BufTy).Contents (Elt F) → (⟨S800000, .i32⟩ : BufTy).Contents (Elt F)),
    binary main_arg7 main_v44 main_v45 (addi : (⟨S800000, .i32⟩ : BufTy).Contents (Elt F) → (⟨S800000, .i32⟩ : BufTy).Contents (Elt F) → (⟨S800000, .i32⟩ : BufTy).Contents (Elt F)),
    ternary main_v43 main_v45 main_arg7 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v46 main_v47 (broadcastInDim S800000x1 ![0] bcast_S800000_S800000x1_0 : (⟨S800000, .i32⟩ : BufTy).Contents (Elt F) → (⟨S800000x1, .i32⟩ : BufTy).Contents (Elt F)),
    binary main_v41 main_v47 main_v48 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_10 (constant S_ .f32 0x00000000#32),
    unary main_cst_10 main_v49 (broadcastInDim S50000x128 ![] bcast_S_S50000x128 : (⟨S_, .f32⟩ : BufTy).Contents (Elt F) → (⟨S50000x128, .f32⟩ : BufTy).Contents (Elt F)),
    unary main_arg8 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v52 (broadcastInDim S50000x1 ![0] bcast_S50000_S50000x1_0 : (⟨S50000, .f32⟩ : BufTy).Contents (Elt F) → (⟨S50000x1, .f32⟩ : BufTy).Contents (Elt F)),
    unary main_v52 main_v53 (broadcastInDim S50000x128 ![0, 1] bcast_S50000x1_S50000x128_0_1 : (⟨S50000x1, .f32⟩ : BufTy).Contents (Elt F) → (⟨S50000x128, .f32⟩ : BufTy).Contents (Elt F)),
    binary main_v51 main_v53 main_v54 (mulf : (⟨S50000x128, .f32⟩ : BufTy).Contents (Elt F) → (⟨S50000x128, .f32⟩ : BufTy).Contents (Elt F) → (⟨S50000x128, .f32⟩ : BufTy).Contents (Elt F)),
    binary main_v54 main_arg2 main_v55 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_11 (constant S_ .f32 0x00000000#32),
    unary main_cst_11 main_v56 (broadcastInDim S50000x128 ![] bcast_S_S50000x128 : (⟨S_, .f32⟩ : BufTy).Contents (Elt F) → (⟨S50000x128, .f32⟩ : BufTy).Contents (Elt F)),
    binary main_v55 main_v56 main_v57 (cmpf .ogt : (⟨S50000x128, .f32⟩ : BufTy).Contents (Elt F) → (⟨S50000x128, .f32⟩ : BufTy).Contents (Elt F) → (⟨S50000x128, .i1⟩ : BufTy).Contents (Elt F)),
    unary main_arg5 main_v58 (broadcastInDim S1x1 ![1] bcast_S1_S1x1_1 : (⟨S1, .f32⟩ : BufTy).Contents (Elt F) → (⟨S1x1, .f32⟩ : BufTy).Contents (Elt F)),
    unary main_v58 main_v59 (broadcastInDim S50000x128 ![0, 1] bcast_S1x1_S50000x128_0_1 : (⟨S1x1, .f32⟩ : BufTy).Contents (Elt F) → (⟨S50000x128, .f32⟩ : BufTy).Contents (Elt F)),
    binary main_v59 main_v55 main_v60 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v57) (TRef.of (T := ⟨S50000x128, .f32⟩) main_v55) (TRef.of (T := ⟨S50000x128, .f32⟩) main_v60) (TRef.of (T := ⟨S50000x128, .f32⟩) main_v61) select ]

/-- The second layer's rows summed per graph and laid beside the first's: the operations up to %65. -/
abbrev opsPool2 : List (HloOp τ sig (Elt F)) :=
  [ nullary main_cst_12 (constant S_ .f32 0x00000000#32),
    unary main_cst_12 main_v62 (broadcastInDim S500x128 ![] bcast_S_S500x128 : (⟨S_, .f32⟩ : BufTy).Contents (Elt F) → (⟨S500x128, .f32⟩ : BufTy).Contents (Elt F)),
    unary main_arg9 main_v63 (broadcastInDim S50000x1 ![0] bcast_S50000_S50000x1_0 : (⟨S50000, .i32⟩ : BufTy).Contents (Elt F) → (⟨S50000x1, .i32⟩ : BufTy).Contents (Elt F)),
    ternary main_v62 main_v63 main_v61 main_v64 ((fun x i u => Host.scatterAdd scatter_S500x128_S50000x1_S50000x128_1_0_0_1 x i u) : (⟨S500x128, .f32⟩ : BufTy).Contents (Elt F) → (⟨S50000x1, .i32⟩ : BufTy).Contents (Elt F) → (⟨S50000x128, .f32⟩ : BufTy).Contents (Elt F) → (⟨S500x128, .f32⟩ : BufTy).Contents (Elt F)),
    binary main_v38 main_v64 main_v65 ((fun a b => concatenate S500x256 1 [⟨S500x128, a⟩, ⟨S500x128, b⟩] concatenates_S500x128_S500x128_S500x256_d1) : (⟨S500x128, .f32⟩ : BufTy).Contents (Elt F) → (⟨S500x128, .f32⟩ : BufTy).Contents (Elt F) → (⟨S500x256, .f32⟩ : BufTy).Contents (Elt F)) ]

/-- The third layer: the operations %66 to %88. -/
abbrev opsLayer3 : List (HloOp τ sig (Elt F)) :=
  [ unary main_v9 main_v66 (broadcastInDim S50000x1 ![0] bcast_S50000_S50000x1_0 : (⟨S50000, .f32⟩ : BufTy).Contents (Elt F) → (⟨S50000x1, .f32⟩ : BufTy).Contents (Elt F)),
    unary main_v66 main_v67 (broadcastInDim S50000x128 ![0, 1] bcast_S50000x1_S50000x128_0_1 : (⟨S50000x1, .f32⟩ : BufTy).Contents (Elt F) → (⟨S50000x128, .f32⟩ : BufTy).Contents (Elt F)),
    binary main_v61 main_v67 main_v68 (mulf : (⟨S50000x128, .f32⟩ : BufTy).Contents (Elt F) → (⟨S50000x128, .f32⟩ : BufTy).Contents (Elt F) → (⟨S50000x128, .f32⟩ : BufTy).Contents (Elt F)),
    nullary main_c_13 (constantI S_ 32 0#32),
    unary main_c_13 main_v69 (broadcastInDim S800000 ![] bcast_S_S800000 : (⟨S_, .i32⟩ : BufTy).Contents (Elt F) → (⟨S800000, .i32⟩ : BufTy).Contents (Elt F)),
    binary main_arg7 main_v69 main_v70 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v71 (broadcastInDim S800000 ![] bcast_S_S800000 : (⟨S_, .i32⟩ : BufTy).Contents (Elt F) → (⟨S800000, .i32⟩ : BufTy).Contents (Elt F)),
    binary main_arg7 main_v71 main_v72 (addi : (⟨S800000, .i32⟩ : BufTy).Contents (Elt F) → (⟨S800000, .i32⟩ : BufTy).Contents (Elt F) → (⟨S800000, .i32⟩ : BufTy).Contents (Elt F)),
    ternary main_v70 main_v72 main_arg7 main_v73 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v73 main_v74 (broadcastInDim S800000x1 ![0] bcast_S800000_S800000x1_0 : (⟨S800000, .i32⟩ : BufTy).Contents (Elt F) → (⟨S800000x1, .i32⟩ : BufTy).Contents (Elt F)),
    binary main_v68 main_v74 main_v75 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_15 (constant S_ .f32 0x00000000#32),
    unary main_cst_15 main_v76 (broadcastInDim S50000x128 ![] bcast_S_S50000x128 : (⟨S_, .f32⟩ : BufTy).Contents (Elt F) → (⟨S50000x128, .f32⟩ : BufTy).Contents (Elt F)),
    unary main_arg8 main_v77 (broadcastInDim S800000x1 ![0] bcast_S800000_S800000x1_0 : (⟨S800000, .i32⟩ : BufTy).Contents (Elt F) → (⟨S800000x1, .i32⟩ : BufTy).Contents (Elt F)),
    ternary main_v76 main_v77 main_v75 main_v78 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v79 (broadcastInDim S50000x1 ![0] bcast_S50000_S50000x1_0 : (⟨S50000, .f32⟩ : BufTy).Contents (Elt F) → (⟨S50000x1, .f32⟩ : BufTy).Contents (Elt F)),
    unary main_v79 main_v80 (broadcastInDim S50000x128 ![0, 1] bcast_S50000x1_S50000x128_0_1 : (⟨S50000x1, .f32⟩ : BufTy).Contents (Elt F) → (⟨S50000x128, .f32⟩ : BufTy).Contents (Elt F)),
    binary main_v78 main_v80 main_v81 (mulf : (⟨S50000x128, .f32⟩ : BufTy).Contents (Elt F) → (⟨S50000x128, .f32⟩ : BufTy).Contents (Elt F) → (⟨S50000x128, .f32⟩ : BufTy).Contents (Elt F)),
    binary main_v81 main_arg3 main_v82 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_16 (constant S_ .f32 0x00000000#32),
    unary main_cst_16 main_v83 (broadcastInDim S50000x128 ![] bcast_S_S50000x128 : (⟨S_, .f32⟩ : BufTy).Contents (Elt F) → (⟨S50000x128, .f32⟩ : BufTy).Contents (Elt F)),
    binary main_v82 main_v83 main_v84 (cmpf .ogt : (⟨S50000x128, .f32⟩ : BufTy).Contents (Elt F) → (⟨S50000x128, .f32⟩ : BufTy).Contents (Elt F) → (⟨S50000x128, .i1⟩ : BufTy).Contents (Elt F)),
    unary main_arg6 main_v85 (broadcastInDim S1x1 ![1] bcast_S1_S1x1_1 : (⟨S1, .f32⟩ : BufTy).Contents (Elt F) → (⟨S1x1, .f32⟩ : BufTy).Contents (Elt F)),
    unary main_v85 main_v86 (broadcastInDim S50000x128 ![0, 1] bcast_S1x1_S50000x128_0_1 : (⟨S1x1, .f32⟩ : BufTy).Contents (Elt F) → (⟨S50000x128, .f32⟩ : BufTy).Contents (Elt F)),
    binary main_v86 main_v82 main_v87 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v84) (TRef.of (T := ⟨S50000x128, .f32⟩) main_v82) (TRef.of (T := ⟨S50000x128, .f32⟩) main_v87) (TRef.of (T := ⟨S50000x128, .f32⟩) main_v88) select ]

/-- The third layer's rows summed per graph and laid beside the other two: the operations up to %92. -/
abbrev opsPool3 : List (HloOp τ sig (Elt F)) :=
  [ nullary main_cst_17 (constant S_ .f32 0x00000000#32),
    unary main_cst_17 main_v89 (broadcastInDim S500x128 ![] bcast_S_S500x128 : (⟨S_, .f32⟩ : BufTy).Contents (Elt F) → (⟨S500x128, .f32⟩ : BufTy).Contents (Elt F)),
    unary main_arg9 main_v90 (broadcastInDim S50000x1 ![0] bcast_S50000_S50000x1_0 : (⟨S50000, .i32⟩ : BufTy).Contents (Elt F) → (⟨S50000x1, .i32⟩ : BufTy).Contents (Elt F)),
    ternary main_v89 main_v90 main_v88 main_v91 ((fun x i u => Host.scatterAdd scatter_S500x128_S50000x1_S50000x128_1_0_0_1 x i u) : (⟨S500x128, .f32⟩ : BufTy).Contents (Elt F) → (⟨S50000x1, .i32⟩ : BufTy).Contents (Elt F) → (⟨S50000x128, .f32⟩ : BufTy).Contents (Elt F) → (⟨S500x128, .f32⟩ : BufTy).Contents (Elt F)),
    binary main_v65 main_v91 main_v92 ((fun a b => concatenate S500x384 1 [⟨S500x256, a⟩, ⟨S500x128, b⟩] concatenates_S500x256_S500x128_S500x384_d1) : (⟨S500x256, .f32⟩ : BufTy).Contents (Elt F) → (⟨S500x128, .f32⟩ : BufTy).Contents (Elt F) → (⟨S500x384, .f32⟩ : BufTy).Contents (Elt F)) ]

/-! ## What each stretch writes, and that it leaves every other buffer alone -/

/-- An operation whose one written buffer is the reference `y`, a member of the list `l`, writes inside `l`. -/
theorem writes_sub {l : List (Ref sig .tc)} {y : Ref sig .tc} (h : y ∈ l) :
    ({Proc.devRef .tc y} : Finset (DevRef τ sig)) ⊆ (l.map (Proc.devRef (τ := τ) .tc)).toFinset :=
  Finset.singleton_subset_iff.mpr (List.mem_toFinset.mpr (List.mem_map.mpr ⟨y, h, rfl⟩))

local macro "w!" : term => `(writes_sub (by decide))

/-- The references each stretch writes: the result of each of its operations, in order. -/
abbrev degW : List (Ref sig .tc) :=
  [main_cst, main_v0, main_cst_0, main_v1, main_v2, main_v3, main_cst_1, main_v4, main_v5, main_v6, main_cst_2, main_v7, main_v8, main_v9,
   main_cst_3, main_v10, main_v11, main_v12]
abbrev layer1W : List (Ref sig .tc) :=
  [main_v13, main_v14, main_v15, main_c, main_v16, main_v17, main_c_4, main_v18, main_v19, main_v20, main_v21, main_v22, main_cst_5, main_v23,
   main_v24, main_v25, main_v26, main_v27, main_v28, main_v29, main_cst_6, main_v30, main_v31, main_v32, main_v33, main_v34, main_v35]
abbrev pool1W : List (Ref sig .tc) := [main_cst_7, main_v36, main_v37, main_v38]
abbrev layer2W : List (Ref sig .tc) :=
  [main_v39, main_v40, main_v41, main_c_8, main_v42, main_v43, main_c_9, main_v44, main_v45, main_v46, main_v47, main_v48, main_cst_10, main_v49,
   main_v50, main_v51, main_v52, main_v53, main_v54, main_v55, main_cst_11, main_v56, main_v57, main_v58, main_v59, main_v60, main_v61]
abbrev pool2W : List (Ref sig .tc) := [main_cst_12, main_v62, main_v63, main_v64, main_v65]
abbrev layer3W : List (Ref sig .tc) :=
  [main_v66, main_v67, main_v68, main_c_13, main_v69, main_v70, main_c_14, main_v71, main_v72, main_v73, main_v74, main_v75, main_cst_15, main_v76,
   main_v77, main_v78, main_v79, main_v80, main_v81, main_v82, main_cst_16, main_v83, main_v84, main_v85, main_v86, main_v87, main_v88]
abbrev pool3W : List (Ref sig .tc) := [main_cst_17, main_v89, main_v90, main_v91, main_v92]

theorem deg_writes : (opsDeg : List (HloOp τ sig (Elt F))).Forall fun op => op.writes ⊆ (degW.map (Proc.devRef (τ := τ) .tc)).toFinset :=
  ⟨w!, w!, w!, w!, w!, w!, w!, w!, w!, w!, w!, w!, w!, w!, w!, w!, w!, w!⟩
theorem layer1_writes : (opsLayer1 : List (HloOp τ sig (Elt F))).Forall fun op => op.writes ⊆ (layer1W.map (Proc.devRef (τ := τ) .tc)).toFinset :=
  ⟨w!, w!, w!, w!, w!, w!, w!, w!, w!, w!, w!, w!, w!, w!, w!, w!, w!, w!, w!, w!, w!, w!, w!, w!, w!, w!, w!⟩
theorem pool1_writes : (opsPool1 : List (HloOp τ sig (Elt F))).Forall fun op => op.writes ⊆ (pool1W.map (Proc.devRef (τ := τ) .tc)).toFinset :=
  ⟨w!, w!, w!, w!⟩
theorem layer2_writes : (opsLayer2 : List (HloOp τ sig (Elt F))).Forall fun op => op.writes ⊆ (layer2W.map (Proc.devRef (τ := τ) .tc)).toFinset :=
  ⟨w!, w!, w!, w!, w!, w!, w!, w!, w!, w!, w!, w!, w!, w!, w!, w!, w!, w!, w!, w!, w!, w!, w!, w!, w!, w!, w!⟩
theorem pool2_writes : (opsPool2 : List (HloOp τ sig (Elt F))).Forall fun op => op.writes ⊆ (pool2W.map (Proc.devRef (τ := τ) .tc)).toFinset :=
  ⟨w!, w!, w!, w!, w!⟩
theorem layer3_writes : (opsLayer3 : List (HloOp τ sig (Elt F))).Forall fun op => op.writes ⊆ (layer3W.map (Proc.devRef (τ := τ) .tc)).toFinset :=
  ⟨w!, w!, w!, w!, w!, w!, w!, w!, w!, w!, w!, w!, w!, w!, w!, w!, w!, w!, w!, w!, w!, w!, w!, w!, w!, w!, w!⟩
theorem pool3_writes : (opsPool3 : List (HloOp τ sig (Elt F))).Forall fun op => op.writes ⊆ (pool3W.map (Proc.devRef (τ := τ) .tc)).toFinset :=
  ⟨w!, w!, w!, w!, w!⟩

section Stretches
variable (W : Valuation τ sig (Elt F)) {r : Ref sig .tc}

theorem deg_keep (hr : r ∉ degW) : after opsDeg W (Proc.devRef .tc r) = W (Proc.devRef .tc r) := after_of_writes_sub opsDeg W deg_writes hr
theorem layer1_keep (hr : r ∉ layer1W) : after opsLayer1 W (Proc.devRef .tc r) = W (Proc.devRef .tc r) := after_of_writes_sub opsLayer1 W layer1_writes hr
theorem pool1_keep (hr : r ∉ pool1W) : after opsPool1 W (Proc.devRef .tc r) = W (Proc.devRef .tc r) := after_of_writes_sub opsPool1 W pool1_writes hr
theorem layer2_keep (hr : r ∉ layer2W) : after opsLayer2 W (Proc.devRef .tc r) = W (Proc.devRef .tc r) := after_of_writes_sub opsLayer2 W layer2_writes hr
theorem pool2_keep (hr : r ∉ pool2W) : after opsPool2 W (Proc.devRef .tc r) = W (Proc.devRef .tc r) := after_of_writes_sub opsPool2 W pool2_writes hr
theorem layer3_keep (hr : r ∉ layer3W) : after opsLayer3 W (Proc.devRef .tc r) = W (Proc.devRef .tc r) := after_of_writes_sub opsLayer3 W layer3_writes hr
theorem pool3_keep (hr : r ∉ pool3W) : after opsPool3 W (Proc.devRef .tc r) = W (Proc.devRef .tc r) := after_of_writes_sub opsPool3 W pool3_writes hr

/-! ## What each stretch computes, from any contents `W` -/

/-- The source-side factor: the inverse square root of the clamped count of the edges whose source is each node. -/
theorem deg_v9 : after opsDeg W (Proc.devRef .tc main_v9) = Cert.Gcn.invSqrtDeg (F := F) (W (Proc.devRef .tc main_arg7)) := by
  simp only [opsDeg]; after_results_simp; rfl
/-- The target-side factor. -/
theorem deg_v12 : after opsDeg W (Proc.devRef .tc main_v12) = Cert.Gcn.invSqrtDeg (F := F) (W (Proc.devRef .tc main_arg8)) := by
  simp only [opsDeg]; after_results_simp; rfl

/-- A layer's stretch: the dense part of the aggregated, source-scaled features, from the features, the two factors,
    the edges, the weight matrix and the slope it finds in the buffers. -/
theorem layer1_v35 : after opsLayer1 W (Proc.devRef .tc main_v35)
    = Cert.Gcn.dense (F := F) (Cert.Gcn.aggregate (mulf (W (Proc.devRef .tc main_arg0)) (Cert.Gcn.rows (W (Proc.devRef .tc main_v9)))) (W (Proc.devRef .tc main_arg7)) (W (Proc.devRef .tc main_arg8)))
        (W (Proc.devRef .tc main_arg1)) (W (Proc.devRef .tc main_arg4)) (W (Proc.devRef .tc main_v12)) := by
  simp only [opsLayer1]; after_results_simp; rfl
theorem layer2_v61 : after opsLayer2 W (Proc.devRef .tc main_v61)
    = Cert.Gcn.dense (F := F) (Cert.Gcn.aggregate (mulf (W (Proc.devRef .tc main_v35)) (Cert.Gcn.rows (W (Proc.devRef .tc main_v9)))) (W (Proc.devRef .tc main_arg7)) (W (Proc.devRef .tc main_arg8)))
        (W (Proc.devRef .tc main_arg2)) (W (Proc.devRef .tc main_arg5)) (W (Proc.devRef .tc main_v12)) := by
  simp only [opsLayer2]; after_results_simp; rfl
theorem layer3_v88 : after opsLayer3 W (Proc.devRef .tc main_v88)
    = Cert.Gcn.dense (F := F) (Cert.Gcn.aggregate (mulf (W (Proc.devRef .tc main_v61)) (Cert.Gcn.rows (W (Proc.devRef .tc main_v9)))) (W (Proc.devRef .tc main_arg7)) (W (Proc.devRef .tc main_arg8)))
        (W (Proc.devRef .tc main_arg3)) (W (Proc.devRef .tc main_arg6)) (W (Proc.devRef .tc main_v12)) := by
  simp only [opsLayer3]; after_results_simp; rfl

/-- A pooling stretch: the rows of each graph summed; the second and third lay their block beside the earlier ones. -/
theorem pool1_v38 : after opsPool1 W (Proc.devRef .tc main_v38) = Cert.Gcn.pool (F := F) (W (Proc.devRef .tc main_v35)) (W (Proc.devRef .tc main_arg9)) := by
  simp only [opsPool1]; after_results_simp; rfl
theorem pool2_v65 : after opsPool2 W (Proc.devRef .tc main_v65)
    = concatenate S500x256 1 [⟨S500x128, W (Proc.devRef .tc main_v38)⟩, ⟨S500x128, Cert.Gcn.pool (F := F) (W (Proc.devRef .tc main_v61)) (W (Proc.devRef .tc main_arg9))⟩] concatenates_S500x128_S500x128_S500x256_d1 := by
  simp only [opsPool2]; after_results_simp; rfl
theorem pool3_v92 : after opsPool3 W (Proc.devRef .tc main_v92)
    = concatenate S500x384 1 [⟨S500x256, W (Proc.devRef .tc main_v65)⟩, ⟨S500x128, Cert.Gcn.pool (F := F) (W (Proc.devRef .tc main_v88)) (W (Proc.devRef .tc main_arg9))⟩] concatenates_S500x256_S500x128_S500x384_d1 := by
  simp only [opsPool3]; after_results_simp; rfl

end Stretches

/-! ## The stretches in a row

`stK V` is what the buffers hold after the first K stretches run from contents `V`. Each fact below reads one buffer
there as a function of the ARGUMENTS' contents in `V`: the stretch's own lemma, then the facts of the stage before. -/

def st1 (V : Valuation τ sig (Elt F)) : Valuation τ sig (Elt F) := after opsDeg V
def st2 (V : Valuation τ sig (Elt F)) : Valuation τ sig (Elt F) := after opsLayer1 (st1 V)
def st3 (V : Valuation τ sig (Elt F)) : Valuation τ sig (Elt F) := after opsPool1 (st2 V)
def st4 (V : Valuation τ sig (Elt F)) : Valuation τ sig (Elt F) := after opsLayer2 (st3 V)
def st5 (V : Valuation τ sig (Elt F)) : Valuation τ sig (Elt F) := after opsPool2 (st4 V)
def st6 (V : Valuation τ sig (Elt F)) : Valuation τ sig (Elt F) := after opsLayer3 (st5 V)
def st7 (V : Valuation τ sig (Elt F)) : Valuation τ sig (Elt F) := after opsPool3 (st6 V)

section Stages
variable (V : Valuation τ sig (Elt F)) {r : Ref sig .tc}

/-! ### After the degrees -/
theorem st1_keep (hr : r ∉ degW) : st1 V (Proc.devRef .tc r) = V (Proc.devRef .tc r) := deg_keep V hr
theorem st1_v9 : st1 V (Proc.devRef .tc main_v9) = Cert.Gcn.invSqrtDeg (F := F) (V (Proc.devRef .tc main_arg7)) := deg_v9 V
theorem st1_v12 : st1 V (Proc.devRef .tc main_v12) = Cert.Gcn.invSqrtDeg (F := F) (V (Proc.devRef .tc main_arg8)) := deg_v12 V

/-! ### After the first layer -/
theorem st2_keep (hr : r ∉ degW ++ layer1W) : st2 V (Proc.devRef .tc r) = V (Proc.devRef .tc r) := by
  unfold st2; rw [layer1_keep _ (fun h => hr (List.mem_append_right _ h)), st1_keep V (fun h => hr (List.mem_append_left _ h))]
theorem st2_v9 : st2 V (Proc.devRef .tc main_v9) = Cert.Gcn.invSqrtDeg (F := F) (V (Proc.devRef .tc main_arg7)) := by
  unfold st2; rw [layer1_keep _ (by decide), st1_v9]
theorem st2_v12 : st2 V (Proc.devRef .tc main_v12) = Cert.Gcn.invSqrtDeg (F := F) (V (Proc.devRef .tc main_arg8)) := by
  unfold st2; rw [layer1_keep _ (by decide), st1_v12]
theorem st2_v35 : st2 V (Proc.devRef .tc main_v35) = Cert.Gcn.node1 (F := F) (V (Proc.devRef .tc main_arg0)) (V (Proc.devRef .tc main_arg1)) (V (Proc.devRef .tc main_arg4)) (V (Proc.devRef .tc main_arg7)) (V (Proc.devRef .tc main_arg8)) := by
  unfold st2
  rw [layer1_v35, st1_v9, st1_v12, st1_keep V (r := main_arg0) (by decide), st1_keep V (r := main_arg7) (by decide), st1_keep V (r := main_arg8) (by decide), st1_keep V (r := main_arg1) (by decide), st1_keep V (r := main_arg4) (by decide)]
  rfl

/-! ### After the first pooling -/
theorem st3_keep (hr : r ∉ (degW ++ layer1W) ++ pool1W) : st3 V (Proc.devRef .tc r) = V (Proc.devRef .tc r) := by
  unfold st3; rw [pool1_keep _ (fun h => hr (List.mem_append_right _ h)), st2_keep V (fun h => hr (List.mem_append_left _ h))]
theorem st3_v9 : st3 V (Proc.devRef .tc main_v9) = Cert.Gcn.invSqrtDeg (F := F) (V (Proc.devRef .tc main_arg7)) := by
  unfold st3; rw [pool1_keep _ (by decide), st2_v9]
theorem st3_v12 : st3 V (Proc.devRef .tc main_v12) = Cert.Gcn.invSqrtDeg (F := F) (V (Proc.devRef .tc main_arg8)) := by
  unfold st3; rw [pool1_keep _ (by decide), st2_v12]
theorem st3_v35 : st3 V (Proc.devRef .tc main_v35) = Cert.Gcn.node1 (F := F) (V (Proc.devRef .tc main_arg0)) (V (Proc.devRef .tc main_arg1)) (V (Proc.devRef .tc main_arg4)) (V (Proc.devRef .tc main_arg7)) (V (Proc.devRef .tc main_arg8)) := by
  unfold st3; rw [pool1_keep _ (by decide), st2_v35]
theorem st3_v38 : st3 V (Proc.devRef .tc main_v38) = Cert.Gcn.pool (F := F) (Cert.Gcn.node1 (F := F) (V (Proc.devRef .tc main_arg0)) (V (Proc.devRef .tc main_arg1)) (V (Proc.devRef .tc main_arg4)) (V (Proc.devRef .tc main_arg7)) (V (Proc.devRef .tc main_arg8))) (V (Proc.devRef .tc main_arg9)) := by
  unfold st3; rw [pool1_v38, st2_v35, st2_keep V (r := main_arg9) (by decide)]

/-! ### After the second layer -/
theorem st4_keep (hr : r ∉ ((degW ++ layer1W) ++ pool1W) ++ layer2W) : st4 V (Proc.devRef .tc r) = V (Proc.devRef .tc r) := by
  unfold st4; rw [layer2_keep _ (fun h => hr (List.mem_append_right _ h)), st3_keep V (fun h => hr (List.mem_append_left _ h))]
theorem st4_v9 : st4 V (Proc.devRef .tc main_v9) = Cert.Gcn.invSqrtDeg (F := F) (V (Proc.devRef .tc main_arg7)) := by
  unfold st4; rw [layer2_keep _ (by decide), st3_v9]
theorem st4_v12 : st4 V (Proc.devRef .tc main_v12) = Cert.Gcn.invSqrtDeg (F := F) (V (Proc.devRef .tc main_arg8)) := by
  unfold st4; rw [layer2_keep _ (by decide), st3_v12]
theorem st4_v38 : st4 V (Proc.devRef .tc main_v38) = Cert.Gcn.pool (F := F) (Cert.Gcn.node1 (F := F) (V (Proc.devRef .tc main_arg0)) (V (Proc.devRef .tc main_arg1)) (V (Proc.devRef .tc main_arg4)) (V (Proc.devRef .tc main_arg7)) (V (Proc.devRef .tc main_arg8))) (V (Proc.devRef .tc main_arg9)) := by
  unfold st4; rw [layer2_keep _ (by decide), st3_v38]
theorem st4_v61 : st4 V (Proc.devRef .tc main_v61) = Cert.Gcn.node2 (F := F) (V (Proc.devRef .tc main_arg0)) (V (Proc.devRef .tc main_arg1)) (V (Proc.devRef .tc main_arg2)) (V (Proc.devRef .tc main_arg4)) (V (Proc.devRef .tc main_arg5)) (V (Proc.devRef .tc main_arg7)) (V (Proc.devRef .tc main_arg8)) := by
  unfold st4
  rw [layer2_v61, st3_v35, st3_v9, st3_v12, st3_keep V (r := main_arg7) (by decide), st3_keep V (r := main_arg8) (by decide), st3_keep V (r := main_arg2) (by decide), st3_keep V (r := main_arg5) (by decide)]
  rfl

/-! ### After the second pooling -/
theorem st5_keep (hr : r ∉ (((degW ++ layer1W) ++ pool1W) ++ layer2W) ++ pool2W) : st5 V (Proc.devRef .tc r) = V (Proc.devRef .tc r) := by
  unfold st5; rw [pool2_keep _ (fun h => hr (List.mem_append_right _ h)), st4_keep V (fun h => hr (List.mem_append_left _ h))]
theorem st5_v9 : st5 V (Proc.devRef .tc main_v9) = Cert.Gcn.invSqrtDeg (F := F) (V (Proc.devRef .tc main_arg7)) := by
  unfold st5; rw [pool2_keep _ (by decide), st4_v9]
theorem st5_v12 : st5 V (Proc.devRef .tc main_v12) = Cert.Gcn.invSqrtDeg (F := F) (V (Proc.devRef .tc main_arg8)) := by
  unfold st5; rw [pool2_keep _ (by decide), st4_v12]
theorem st5_v61 : st5 V (Proc.devRef .tc main_v61) = Cert.Gcn.node2 (F := F) (V (Proc.devRef .tc main_arg0)) (V (Proc.devRef .tc main_arg1)) (V (Proc.devRef .tc main_arg2)) (V (Proc.devRef .tc main_arg4)) (V (Proc.devRef .tc main_arg5)) (V (Proc.devRef .tc main_arg7)) (V (Proc.devRef .tc main_arg8)) := by
  unfold st5; rw [pool2_keep _ (by decide), st4_v61]
theorem st5_v65 : st5 V (Proc.devRef .tc main_v65)
    = concatenate S500x256 1 [⟨S500x128, Cert.Gcn.pool (F := F) (Cert.Gcn.node1 (F := F) (V (Proc.devRef .tc main_arg0)) (V (Proc.devRef .tc main_arg1)) (V (Proc.devRef .tc main_arg4)) (V (Proc.devRef .tc main_arg7)) (V (Proc.devRef .tc main_arg8))) (V (Proc.devRef .tc main_arg9))⟩, ⟨S500x128, Cert.Gcn.pool (F := F) (Cert.Gcn.node2 (F := F) (V (Proc.devRef .tc main_arg0)) (V (Proc.devRef .tc main_arg1)) (V (Proc.devRef .tc main_arg2)) (V (Proc.devRef .tc main_arg4)) (V (Proc.devRef .tc main_arg5)) (V (Proc.devRef .tc main_arg7)) (V (Proc.devRef .tc main_arg8))) (V (Proc.devRef .tc main_arg9))⟩] concatenates_S500x128_S500x128_S500x256_d1 := by
  unfold st5; rw [pool2_v65, st4_v38, st4_v61, st4_keep V (r := main_arg9) (by decide)]

/-! ### After the third layer -/
theorem st6_keep (hr : r ∉ ((((degW ++ layer1W) ++ pool1W) ++ layer2W) ++ pool2W) ++ layer3W) : st6 V (Proc.devRef .tc r) = V (Proc.devRef .tc r) := by
  unfold st6; rw [layer3_keep _ (fun h => hr (List.mem_append_right _ h)), st5_keep V (fun h => hr (List.mem_append_left _ h))]
theorem st6_v65 : st6 V (Proc.devRef .tc main_v65)
    = concatenate S500x256 1 [⟨S500x128, Cert.Gcn.pool (F := F) (Cert.Gcn.node1 (F := F) (V (Proc.devRef .tc main_arg0)) (V (Proc.devRef .tc main_arg1)) (V (Proc.devRef .tc main_arg4)) (V (Proc.devRef .tc main_arg7)) (V (Proc.devRef .tc main_arg8))) (V (Proc.devRef .tc main_arg9))⟩, ⟨S500x128, Cert.Gcn.pool (F := F) (Cert.Gcn.node2 (F := F) (V (Proc.devRef .tc main_arg0)) (V (Proc.devRef .tc main_arg1)) (V (Proc.devRef .tc main_arg2)) (V (Proc.devRef .tc main_arg4)) (V (Proc.devRef .tc main_arg5)) (V (Proc.devRef .tc main_arg7)) (V (Proc.devRef .tc main_arg8))) (V (Proc.devRef .tc main_arg9))⟩] concatenates_S500x128_S500x128_S500x256_d1 := by
  unfold st6; rw [layer3_keep _ (by decide), st5_v65]
theorem st6_v88 : st6 V (Proc.devRef .tc main_v88) = Cert.Gcn.node3 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold st6
  rw [layer3_v88, st5_v61, st5_v9, st5_v12, st5_keep V (r := main_arg7) (by decide), st5_keep V (r := main_arg8) (by decide), st5_keep V (r := main_arg3) (by decide), st5_keep V (r := main_arg6) (by decide)]
  rfl

/-! ### After the third pooling: the whole program -/
theorem st7_keep (hr : r ∉ (((((degW ++ layer1W) ++ pool1W) ++ layer2W) ++ pool2W) ++ layer3W) ++ pool3W) : st7 V (Proc.devRef .tc r) = V (Proc.devRef .tc r) := by
  unfold st7; rw [pool3_keep _ (fun h => hr (List.mem_append_right _ h)), st6_keep V (fun h => hr (List.mem_append_left _ h))]
theorem st7_v88 : st7 V (Proc.devRef .tc main_v88) = Cert.Gcn.node3 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold st7; rw [pool3_keep _ (by decide), st6_v88]
theorem st7_v92 : st7 V (Proc.devRef .tc main_v92) = Cert.Gcn.pooled (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  unfold st7; rw [pool3_v92, st6_v65, st6_v88, st6_keep V (r := main_arg9) (by decide)]
  rfl

end Stages

/-! ## The whole line -/

/-- The program's operation list is the seven stretches in a row. -/
theorem ops_eq : (HandOps.ops : List (HloOp τ sig (Elt F)))
    = opsDeg ++ (opsLayer1 ++ (opsPool1 ++ (opsLayer2 ++ (opsPool2 ++ (opsLayer3 ++ opsPool3))))) := rfl

/-- The buffers after the whole line are the seventh stage. -/
theorem after_ops (V : Valuation τ sig (Elt F)) : after HandOps.ops V = st7 V := by
  rw [ops_eq]; simp only [after_append]; rfl

/-- No operation of a stretch leaves a result undetermined. -/
theorem deg_fresh : ∀ op ∈ (opsDeg : List (HloOp τ sig (Elt F))), op.fresh = ∅ := by
  intro _ h; (repeat (cases h with | head => rfl | tail _ h => ?_)); exact nomatch h
theorem layer1_fresh : ∀ op ∈ (opsLayer1 : List (HloOp τ sig (Elt F))), op.fresh = ∅ := by
  intro _ h; (repeat (cases h with | head => rfl | tail _ h => ?_)); exact nomatch h
theorem pool1_fresh : ∀ op ∈ (opsPool1 : List (HloOp τ sig (Elt F))), op.fresh = ∅ := by
  intro _ h; (repeat (cases h with | head => rfl | tail _ h => ?_)); exact nomatch h
theorem layer2_fresh : ∀ op ∈ (opsLayer2 : List (HloOp τ sig (Elt F))), op.fresh = ∅ := by
  intro _ h; (repeat (cases h with | head => rfl | tail _ h => ?_)); exact nomatch h
theorem pool2_fresh : ∀ op ∈ (opsPool2 : List (HloOp τ sig (Elt F))), op.fresh = ∅ := by
  intro _ h; (repeat (cases h with | head => rfl | tail _ h => ?_)); exact nomatch h
theorem layer3_fresh : ∀ op ∈ (opsLayer3 : List (HloOp τ sig (Elt F))), op.fresh = ∅ := by
  intro _ h; (repeat (cases h with | head => rfl | tail _ h => ?_)); exact nomatch h
theorem pool3_fresh : ∀ op ∈ (opsPool3 : List (HloOp τ sig (Elt F))), op.fresh = ∅ := by
  intro _ h; (repeat (cases h with | head => rfl | tail _ h => ?_)); exact nomatch h

theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ := fun op h => (List.mem_append.mp h).elim (h₁ op) (h₂ op)

theorem ops_fresh : ∀ op ∈ (HandOps.ops : List (HloOp τ sig (Elt F))), op.fresh = ∅ := by
  rw [ops_eq]
  exact fresh_append deg_fresh (fresh_append layer1_fresh (fresh_append pool1_fresh (fresh_append layer2_fresh
    (fresh_append pool2_fresh (fresh_append layer3_fresh pool3_fresh)))))

/-- On every device, for any float values, from any memory with zero counters: every weakly fair execution of @main
    terminates with the node features after three layers in %88, the three pooled blocks side by side in %92, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = Cert.Gcn.node3 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v92) = Cert.Gcn.pooled (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      have e : ∀ b : Ref sig .tc, _ = st7 (launchContents m c) (Proc.devRef .tc b) := fun b => (h c b).trans (congrFun (after_ops _) _)
      ⟨(e main_v88).trans (st7_v88 _), (e main_v92).trans (st7_v92 _),
       (e main_arg0).trans (st7_keep _ (by decide)), (e main_arg1).trans (st7_keep _ (by decide)), (e main_arg2).trans (st7_keep _ (by decide)), (e main_arg3).trans (st7_keep _ (by decide)), (e main_arg4).trans (st7_keep _ (by decide)), (e main_arg5).trans (st7_keep _ (by decide)), (e main_arg6).trans (st7_keep _ (by decide)), (e main_arg7).trans (st7_keep _ (by decide)), (e main_arg8).trans (st7_keep _ (by decide)),
       (e main_arg9).trans (st7_keep _ (by decide))⟩)
    (run_seq HandOps.scopedRefs_eq HandOps.scopedSems_eq defs main (fun _ => HandOps.ops) HandOps.main_eq (fun _ => HandOps.ops_sub) m ρ
      (fun _ => ops_fresh))

end Cert.ReferenceIdeal.Hand

end
-- ==== Proof.lean ====
/-
  The certificate of a three-layer graph convolution with sum pooling: a kernel program whose dense part of each
  layer (scale the aggregated rows, multiply by the weights, PReLU, scale again for the next layer) runs as a
  row-blocked kernel, against the plain array program.

  Both programs compute, per layer, PReLU_a ((agg ⊙ s) · W) with agg the edge-wise sum of the source-scaled features,
  and pool each layer's rows per graph. They differ in three ways that vanish over the extended reals under the
  precondition: the kernel program passes the carried rows through a narrower float format (the identity here), lays
  the per-node factors out as columns by a reshape rather than a broadcast (the same entries), and counts a negative
  TARGET index from the end before scattering where the plain program drops it (no target index is negative under the
  precondition). The dense kernels tile the node rows in 25 blocks of 2000 and compute the same sums entry by entry.

  The three frames are the generated frame runs (the reference's: its run with the results dropped); no rewrite was
  made by the idealization, so there is nothing to preserve; the algebraic claim joins the kernel program's run, its
  two results read back to the specification, with the reference's run, read back to the same.
-/
import proofs.«409004_j16501264351451_3_alg».proof.Defs
import proofs.«409004_j16501264351451_3_alg».proof.Proof.Gen.Kernel
import proofs.«409004_j16501264351451_3_alg».proof.Proof.Gen.Kernel.Frame
import proofs.«409004_j16501264351451_3_alg».proof.Proof.Gen.KernelIdeal
import proofs.«409004_j16501264351451_3_alg».proof.Proof.Gen.KernelIdeal.Frame
import proofs.«409004_j16501264351451_3_alg».proof.Proof.Gen.ReferenceIdeal
import proofs.«409004_j16501264351451_3_alg».proof.Proof.Gen.Pre_finite_inputs
import proofs.«409004_j16501264351451_3_alg».proof.Proof.KernelRun
import proofs.«409004_j16501264351451_3_alg».proof.Proof.KernelValue
import proofs.«409004_j16501264351451_3_alg».proof.Proof.RefRun
import proofs.«409004_j16501264351451_3_alg».proof.Proof.PreRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Hand.run (F := Ideal) m ρ)

/-- The idealization rewrote nothing. -/
theorem preserves : Cert.preserves_Kernel_KernelIdeal := trivial

/-- Both programs end with the third layer's node features and the three pooled blocks of the specification, at
    arguments that agree; the precondition's "every target index is at least zero" is what the kernel program's
    scatter needs. -/
theorem algebraic : Cert.algebraic_KernelIdeal_ReferenceIdeal := by
  intro m ρ m' ρ' hpre hagree
  have hdst : ∀ c : Dev Cert.KernelIdeal.nD, ∀ i, IntOp.cmpi .sge (Cert.KernelIdeal.Result.xDst m c i) 0#32 = 1#1 :=
    fun c i => Cert.PreRead.dst_nonneg _ _ _ _ _ _ _ _ _ _ (hpre c) i
  refine ⟨fun c => Cert.KernelIdeal.Result.n3 m c,
    fun c => Cert.Gcn.pooled (F := Ideal) (Cert.KernelIdeal.Result.xFeat m c) (Cert.KernelIdeal.Result.xW0 m c) (Cert.KernelIdeal.Result.xW1 m c) (Cert.KernelIdeal.Result.xW2 m c) (Cert.KernelIdeal.Result.xA0 m c) (Cert.KernelIdeal.Result.xA1 m c) (Cert.KernelIdeal.Result.xA2 m c) (Cert.KernelIdeal.Result.xSrc m c) (Cert.KernelIdeal.Result.xDst m c) (Cert.KernelIdeal.Result.xGid m c),
    ?_, ?_⟩
  · exact (θ_run Cert.KernelIdeal.defs _ _).mono
      (fun r h c => ⟨(h c).1.trans (Cert.KernelIdeal.Result.nodes m ρ c (hdst c)),
        (h c).2.1.trans (Cert.KernelIdeal.Result.pools m ρ c (hdst c)), (h c).2.2⟩)
      (Cert.KernelIdeal.GenRun.run_results m ρ)
  · refine (θ_run Cert.ReferenceIdeal.defs _ _).mono (fun r h c => ?_) (Cert.ReferenceIdeal.Hand.run (F := Ideal) m' ρ')
    obtain ⟨g0, g1, g2, g3, g4, g5, g6, g7, g8, g9⟩ := hagree c
    refine ⟨(h c).1.trans ?_, (h c).2.1.trans ?_, (h c).2.2⟩
    · rw [g0, g1, g2, g3, g4, g5, g6, g7, g8]
    · rw [g0, g1, g2, g3, g4, g5, g6, g7, g8, g9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
